-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x12x100000x2 : Shape := ⟨4, ![32, 12, 100000, 2]⟩
abbrev S100000 : Shape := ⟨1, ![100000]⟩
abbrev S_ : Shape := ⟨0, ![]⟩

class Facts : Prop where
  bcast_S_S32x12x100000x2 : S_.BroadcastsInDim S32x12x100000x2 (![] : Fin 0 → Fin S32x12x100000x2.rank)
  reducesTo_S32x12x100000x2_S_d0_1_2_3 : S32x12x100000x2.ReducesTo [0, 1, 2, 3] S_
  h_S_ : 0 < S_.numel

variable [Facts]

def fn {F : FTy → Type} [FloatOps F] (main_arg0 : FVec F S32x12x100000x2 .f32) (main_arg1 : IVec S100000 32) : IVec S_ 1 :=
  let main_v0 : FVec F S32x12x100000x2 .f32 := Host.absf main_arg0
  let main_cst : FVec F S_ .f32 := constant S_ .f32 0x7F800000#32
  let main_v1 : FVec F S32x12x100000x2 .f32 := broadcastInDim S32x12x100000x2 ![] bcast_S_S32x12x100000x2 main_cst
  let main_v2 : IVec S32x12x100000x2 1 := cmpf .olt main_v0 main_v1
  let main_c : IVec S_ 1 := constantI S_ 1 1#1
  let main_v3 : IVec S_ 1 := (fun x v => Host.reduce IntOp.andi x v reducesTo_S32x12x100000x2_S_d0_1_2_3 h_S_) main_v2 main_c
  main_v3
-- ==== Kernel.lean ====
abbrev S32x12x100000x2 : Shape := ⟨4, ![32, 12, 100000, 2]⟩
abbrev S100000 : Shape := ⟨1, ![100000]⟩
abbrev S32x12x100000x1 : Shape := ⟨4, ![32, 12, 100000, 1]⟩
abbrev S32x12x100000 : Shape := ⟨3, ![32, 12, 100000]⟩
abbrev S_ : Shape := ⟨0, ![]⟩
abbrev S32x12x100096 : Shape := ⟨3, ![32, 12, 100096]⟩
abbrev S100096 : Shape := ⟨1, ![100096]⟩
abbrev S1x100096 : Shape := ⟨2, ![1, 100096]⟩
abbrev S32x10x100096 : Shape := ⟨3, ![32, 10, 100096]⟩
abbrev S32x64 : Shape := ⟨2, ![32, 64]⟩
abbrev S16x12x4352 : Shape := ⟨3, ![16, 12, 4352]⟩
abbrev S1x4352 : Shape := ⟨2, ![1, 4352]⟩
abbrev S16x10x4352 : Shape := ⟨3, ![16, 10, 4352]⟩
abbrev S16x64 : Shape := ⟨2, ![16, 64]⟩
abbrev S16x4352 : Shape := ⟨2, ![16, 4352]⟩
abbrev S16x1x4352 : Shape := ⟨3, ![16, 1, 4352]⟩
abbrev S64x4352 : Shape := ⟨2, ![64, 4352]⟩
abbrev S32x10x100000 : Shape := ⟨3, ![32, 10, 100000]⟩
abbrev S64 : Shape := ⟨1, ![64]⟩
abbrev S100000x1 : Shape := ⟨2, ![100000, 1]⟩
abbrev S1x64 : Shape := ⟨2, ![1, 64]⟩
abbrev S32x1x64 : Shape := ⟨3, ![32, 1, 64]⟩
abbrev S32x10x64 : Shape := ⟨3, ![32, 10, 64]⟩

abbrev nBuf : Space → Nat
  | .hbm => 25
  | .vmem => 9
  | .smem => 0
  | _ => 0

abbrev bufTy : (tb : Table) → Fin (tcTables nBuf tb) → BufTy
  | .hbm, ⟨0, _⟩ => ⟨S32x12x100000x2, .f32⟩
  | .hbm, ⟨1, _⟩ => ⟨S100000, .i32⟩
  | .hbm, ⟨2, _⟩ => ⟨S32x12x100000x1, .f32⟩
  | .hbm, ⟨3, _⟩ => ⟨S32x12x100000, .f32⟩
  | .hbm, ⟨4, _⟩ => ⟨S_, .i32⟩
  | .hbm, ⟨5, _⟩ => ⟨S_, .f32⟩
  | .hbm, ⟨6, _⟩ => ⟨S32x12x100096, .f32⟩
  | .hbm, ⟨7, _⟩ => ⟨S_, .i32⟩
  | .hbm, ⟨8, _⟩ => ⟨S_, .i32⟩
  | .hbm, ⟨9, _⟩ => ⟨S100096, .i32⟩
  | .hbm, ⟨10, _⟩ => ⟨S1x100096, .i32⟩
  | .hbm, ⟨11, _⟩ => ⟨S32x10x100096, .f32⟩
  | .hbm, ⟨12, _⟩ => ⟨S32x64, .f32⟩
  | .hbm, ⟨13, _⟩ => ⟨S32x10x100000, .f32⟩
  | .hbm, ⟨14, _⟩ => ⟨S_, .f32⟩
  | .hbm, ⟨15, _⟩ => ⟨S100000, .f32⟩
  | .hbm, ⟨16, _⟩ => ⟨S_, .f32⟩
  | .hbm, ⟨17, _⟩ => ⟨S64, .f32⟩
  | .hbm, ⟨18, _⟩ => ⟨S100000x1, .i32⟩
  | .hbm, ⟨19, _⟩ => ⟨S64, .f32⟩
  | .hbm, ⟨20, _⟩ => ⟨S1x64, .f32⟩
  | .hbm, ⟨21, _⟩ => ⟨S32x64, .f32⟩
  | .hbm, ⟨22, _⟩ => ⟨S32x64, .f32⟩
  | .hbm, ⟨23, _⟩ => ⟨S32x1x64, .f32⟩
  | .hbm, ⟨24, _⟩ => ⟨S32x10x64, .f32⟩
  | .local _ .vmem, ⟨0, _⟩ => ⟨S16x12x4352, .f32⟩
  | .local _ .vmem, ⟨1, _⟩ => ⟨S16x12x4352, .f32⟩
  | .local _ .vmem, ⟨2, _⟩ => ⟨S1x4352, .i32⟩
  | .local _ .vmem, ⟨3, _⟩ => ⟨S1x4352, .i32⟩
  | .local _ .vmem, ⟨4, _⟩ => ⟨S16x10x4352, .f32⟩
  | .local _ .vmem, ⟨5, _⟩ => ⟨S16x10x4352, .f32⟩
  | .local _ .vmem, ⟨6, _⟩ => ⟨S16x64, .f32⟩
  | .local _ .vmem, ⟨7, _⟩ => ⟨S16x64, .f32⟩
  | .local _ .vmem, ⟨8, _⟩ => ⟨S16x64, .f32⟩
  | _, _ => ⟨S32x12x100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 23], ![false, false]⟩

def k0_cond2 (i : grid0.Coords) : BitVec 1 :=
  let arg1 : BitVec 32 := BitVec.ofNat 32 (i 1).val
  let c22_i32 : BitVec 32 := 22#32
  let v27 : BitVec 1 := Scalar.cmpi .eq arg1 c22_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x12x4352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x10x4352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S32x12x100000x2_S32x12x100000x1_0_0_0_0 : S32x12x100000x2.Slices ![0, 0, 0, 0] S32x12x100000x1
  shapeCasts_S32x12x100000x1_S32x12x100000 : S32x12x100000x1.ShapeCasts S32x12x100000
  pads_S32x12x100000_S32x12x100096_000_000_0960 : S32x12x100000.Pads (![0, 0, 0] : Fin 3 → Nat) ![0, 0, 96] ![0, 0, 0] S32x12x100096
  h_S_ : 0 < S_.numel
  pads_S100000_S100096_0960 : S100000.Pads (![0] : Fin 1 → Nat) ![96] ![0] S100096
  shapeCasts_S100096_S1x100096 : S100096.ShapeCasts S1x100096
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x12x4352_S16x12x4352_0_0_0 : ∀ a, (![0, 0, 0] : Fin 3 → Nat) a + S16x12x4352.size a ≤ S16x12x4352.size a
  h_S16x12x4352 : 0 < S16x12x4352.numel
  shapeCasts_S16x12x4352_S16x12x4352 : S16x12x4352.ShapeCasts S16x12x4352
  reduces_S16x12x4352_S16x4352 : S16x12x4352.Reduces [1] S16x4352
  shapeCasts_S16x4352_S16x1x4352 : S16x4352.ShapeCasts S16x1x4352
  shapeCasts_S16x1x4352_S16x1x4352 : S16x1x4352.ShapeCasts S16x1x4352
  broadcasts_S16x1x4352_S16x10x4352 : S16x1x4352.Broadcasts S16x10x4352
  inb_S16x10x4352_S16x10x4352_0_0_0 : ∀ a, (![0, 0, 0] : Fin 3 → Nat) a + S16x10x4352.size a ≤ S16x10x4352.size a
  h_S16x10x4352 : 0 < S16x10x4352.numel
  inb_S1x4352_S1x4352_0_0 : ∀ a, (![0, 0] : Fin 2 → Nat) a + S1x4352.size a ≤ S1x4352.size a
  h_S1x4352 : 0 < S1x4352.numel
  shapeCasts_S1x4352_S1x4352 : S1x4352.ShapeCasts S1x4352
  iota_S64x4352_d0_w32 : S64x4352.Iotas .tc 32 [0]
  broadcasts_S1x4352_S64x4352 : S1x4352.Broadcasts S64x4352
  natLt_1_32 : 1 < 32
  bitsLt_bf16_f32 : FTy.bits .bf16 < FTy.bits .f32
  slices_S32x10x100096_S32x10x100000_0_0_0 : S32x10x100096.Slices ![0, 0, 0] S32x10x100000
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S32x64_S32x1x64_0_2 : S32x64.BroadcastsInDim S32x1x64 (![0, 2] : Fin 2 → Fin S32x1x64.rank)
  bcast_S32x1x64_S32x10x64_0_1_2 : S32x1x64.BroadcastsInDim S32x10x64 (![0, 1, 2] : Fin 3 → Fin S32x10x64.rank)
  dot_S16x4352_S64x4352_S16x64_1_1_0_0_n_n_wf : DotDims.WF S16x4352 S64x4352 S16x64 [1] [1] [0] [0] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x12x4352.size a ≤ S32x12x100096.size a
  hwx0_0 : ∀ i : grid0.Coords, EltTy.bits .f32 = 32 ∨ (Rect.block (s := S32x12x100096) S16x12x4352.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4352.size a ≤ S1x100096.size a
  hwx0_1 : ∀ i : grid0.Coords, EltTy.bits .i32 = 32 ∨ (Rect.block (s := S1x100096) S1x4352.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x10x4352.size a ≤ S32x10x100096.size a
  hwx0_2 : ∀ i : grid0.Coords, EltTy.bits .f32 = 32 ∨ (Rect.block (s := S32x10x100096) S16x10x4352.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S32x64.size a
  hwx0_3 : ∀ i : grid0.Coords, EltTy.bits .f32 = 32 ∨ (Rect.block (s := S32x64) S16x64.size (cc0_transform_3 i) (hinb0_3 i)).WholeWords (EltTy.packing .f32)

variable [Facts₀]

def dot_S16x4352_S64x4352_S16x64_1_1_0_0_n_n : DotDims S16x4352 S64x4352 S16x64 where
  lhsContracting := [1]
  rhsContracting := [1]
  lhsNonContracting := [0]
  rhsNonContracting := [0]
  lhsBatch := []
  rhsBatch := []
  wf := dot_S16x4352_S64x4352_S16x64_1_1_0_0_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v2) S16x12x4352.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4352.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S16x10x4352.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S16x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x12x100000x2 : Shape := ⟨4, ![32, 12, 100000, 2]⟩
abbrev S100000 : Shape := ⟨1, ![100000]⟩
abbrev S32x12x100000x1 : Shape := ⟨4, ![32, 12, 100000, 1]⟩
abbrev S32x12x100000 : Shape := ⟨3, ![32, 12, 100000]⟩
abbrev S_ : Shape := ⟨0, ![]⟩
abbrev S32x100000 : Shape := ⟨2, ![32, 100000]⟩
abbrev S32x1x100000 : Shape := ⟨3, ![32, 1, 100000]⟩
abbrev S32x10x100000 : Shape := ⟨3, ![32, 10, 100000]⟩
abbrev S100000x32x10 : Shape := ⟨3, ![100000, 32, 10]⟩
abbrev S64x32x10 : Shape := ⟨3, ![64, 32, 10]⟩
abbrev S100000x1 : Shape := ⟨2, ![100000, 1]⟩
abbrev S64 : Shape := ⟨1, ![64]⟩
abbrev S64x1x1 : Shape := ⟨3, ![64, 1, 1]⟩
abbrev S32x10x64 : Shape := ⟨3, ![32, 10, 64]⟩

abbrev nBuf : Space → Nat
  | .hbm => 26
  | .vmem => 0
  | .smem => 0
  | _ => 0

abbrev bufTy : (tb : Table) → Fin (tcTables nBuf tb) → BufTy
  | .hbm, ⟨0, _⟩ => ⟨S32x12x100000x2, .f32⟩
  | .hbm, ⟨1, _⟩ => ⟨S100000, .i32⟩
  | .hbm, ⟨2, _⟩ => ⟨S32x12x100000x1, .f32⟩
  | .hbm, ⟨3, _⟩ => ⟨S32x12x100000, .f32⟩
  | .hbm, ⟨4, _⟩ => ⟨S_, .f32⟩
  | .hbm, ⟨5, _⟩ => ⟨S32x100000, .f32⟩
  | .hbm, ⟨6, _⟩ => ⟨S_, .f32⟩
  | .hbm, ⟨7, _⟩ => ⟨S32x100000, .f32⟩
  | .hbm, ⟨8, _⟩ => ⟨S32x100000, .f32⟩
  | .hbm, ⟨9, _⟩ => ⟨S32x1x100000, .f32⟩
  | .hbm, ⟨10, _⟩ => ⟨S32x10x100000, .f32⟩
  | .hbm, ⟨11, _⟩ => ⟨S100000x32x10, .f32⟩
  | .hbm, ⟨12, _⟩ => ⟨S_, .f32⟩
  | .hbm, ⟨13, _⟩ => ⟨S64x32x10, .f32⟩
  | .hbm, ⟨14, _⟩ => ⟨S100000x1, .i32⟩
  | .hbm, ⟨15, _⟩ => ⟨S64x32x10, .f32⟩
  | .hbm, ⟨16, _⟩ => ⟨S_, .f32⟩
  | .hbm, ⟨17, _⟩ => ⟨S100000, .f32⟩
  | .hbm, ⟨18, _⟩ => ⟨S_, .f32⟩
  | .hbm, ⟨19, _⟩ => ⟨S64, .f32⟩
  | .hbm, ⟨20, _⟩ => ⟨S100000x1, .i32⟩
  | .hbm, ⟨21, _⟩ => ⟨S64, .f32⟩
  | .hbm, ⟨22, _⟩ => ⟨S64x1x1, .f32⟩
  | .hbm, ⟨23, _⟩ => ⟨S64x32x10, .f32⟩
  | .hbm, ⟨24, _⟩ => ⟨S64x32x10, .f32⟩
  | .hbm, ⟨25, _⟩ => ⟨S32x10x64, .f32⟩
  | _, _ => ⟨S32x12x100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  slices_S32x12x100000x2_S32x12x100000x1_0_0_0_0 : S32x12x100000x2.Slices ![0, 0, 0, 0] S32x12x100000x1
  shapeCasts_S32x12x100000x1_S32x12x100000 : S32x12x100000x1.ShapeCasts S32x12x100000
  reducesTo_S32x12x100000_S32x100000_d1 : S32x12x100000.ReducesTo [1] S32x100000
  h_S_ : 0 < S_.numel
  bcast_S_S32x100000 : S_.BroadcastsInDim S32x100000 (![] : Fin 0 → Fin S32x100000.rank)
  bcast_S32x100000_S32x1x100000_0_2 : S32x100000.BroadcastsInDim S32x1x100000 (![0, 2] : Fin 2 → Fin S32x1x100000.rank)
  bcast_S32x1x100000_S32x10x100000_0_1_2 : S32x1x100000.BroadcastsInDim S32x10x100000 (![0, 1, 2] : Fin 3 → Fin S32x10x100000.rank)
  transposes_S32x10x100000_S100000x32x10_2_0_1 : S32x10x100000.Transposes [2, 0, 1] S100000x32x10
  bcast_S_S64x32x10 : S_.BroadcastsInDim S64x32x10 (![] : Fin 0 → Fin S64x32x10.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x32x10_0_1_2 : S64x1x1.BroadcastsInDim S64x32x10 (![0, 1, 2] : Fin 3 → Fin S64x32x10.rank)
  transposes_S64x32x10_S32x10x64_1_2_0 : S64x32x10.Transposes [1, 2, 0] S32x10x64
  scatter_S64x32x10_S100000x1_S100000x32x10_12_0_0_1_wf : ScatterDims.WF S64x32x10 S100000x1 S100000x32x10 [1, 2] [0] [0] 1
  scatter_S64_S100000x1_S100000_n_0_0_1_wf : ScatterDims.WF S64 S100000x1 S100000 [] [0] [0] 1

variable [Facts₀]

def scatter_S64x32x10_S100000x1_S100000x32x10_12_0_0_1 : ScatterDims S64x32x10 S100000x1 S100000x32x10 where
  updateWindowDims := [1, 2]
  insertedWindowDims := [0]
  scatterDimsToOperandDims := [0]
  indexVectorDim := 1
  wf := scatter_S64x32x10_S100000x1_S100000x32x10_12_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The specification: what both programs compute, as functions of the two argument arrays
  `x : [32, 12, 100000, 2]` and `cid : [100000]` (32-bit words), index by index, over the extended reals.

  * `mean x b n`   — the mean over the 12 time steps of feature 0 at batch row `b`, node `n`:
                      `(∑ₜ x[b, t, n, 0]) / 12`.
  * `pred x`       — result 0, `[32, 10, 100000]`: the mean repeated over the 10-step horizon.
  * `seg x cid b r` — the sum of the means of the nodes whose id is the word `r` (`r < 64`); a node whose id
                      is no such word (negative, or 64 and above) belongs to no region.
  * `cnt cid`      — the number of nodes per region, as the host computes it: ONE accumulating scatter of ones,
                      the same operation in both programs, so it is never opened.
  * `reg x cid`    — result 1, `[32, 10, 64]`: `seg / cnt`, repeated over the horizon.

  The kernel works on PADDED arrays (100096 = 23 · 4352 nodes: zeros appended to `x`'s feature 0, the id 64
  appended to `cid`) in 23 tiles of 4352 nodes; `meanP`, `hotP`, `tile` and `segP` state what it sums.
-/
import Idealize.ShloMosaic.PureOps.Ideal
import Idealize.ShloMosaic.PureOps.Ideal.Laws
import Idealize.ShloMosaic.Lib.ValueIdx

noncomputable section

namespace Cert.SegMean

open Idealize.ShloMosaic Idealize.ShloMosaic.ValueIdx

/-- The divisor `12.0`, as both programs spell it (never evaluated: the same word on both sides). -/
abbrev twelve : EReal := Ideal.ofBits .f32 0x41400000#32

/-- The mean over the 12 time steps of feature 0 at batch row `b`, node `n`. -/
def mean (x : (⟨4, ![32, 12, 100000, 2]⟩ : Shape).Idx → EReal) (b : Fin 32) (n : Fin 100000) : EReal :=
  Ideal.div (∑ t : Fin 12, x (ix4 b t n 0)) twelve

/-- Result 0: the mean at `(b, n)`, at every step `h` of the horizon. -/
def pred (x : (⟨4, ![32, 12, 100000, 2]⟩ : Shape).Idx → EReal) : (⟨3, ![32, 10, 100000]⟩ : Shape).Idx → EReal :=
  fun i => mean x (i 0) (i 2)

/-- The sum of the means of the nodes of region `r`: those whose id is the word `r`. -/
def seg (x : (⟨4, ![32, 12, 100000, 2]⟩ : Shape).Idx → EReal) (cid : (⟨1, ![100000]⟩ : Shape).Idx → BitVec 32)
    (b : Fin 32) (r : Fin 64) : EReal :=
  ∑ n ∈ Finset.univ.filter (fun n : Fin 100000 => cid (ix1 n) = BitVec.ofNat 32 r.val), mean x b n

/-- The dimension numbers of the scatter that counts the nodes of each region (one scalar index per update). -/
def cntDims : ScatterDims ⟨1, ![64]⟩ ⟨2, ![100000, 1]⟩ ⟨1, ![100000]⟩ where
  updateWindowDims := []
  insertedWindowDims := [0]
  scatterDimsToOperandDims := [0]
  indexVectorDim := 1

/-- The nodes per region, as the host computes them in both programs: ones scattered onto zeros by id. -/
def cnt (cid : (⟨1, ![100000]⟩ : Shape).Idx → BitVec 32) : (⟨1, ![64]⟩ : Shape).Idx → EReal :=
  Host.scatterAdd (F := Ideal) (φ := .f32) cntDims
    (broadcastInDim ⟨1, ![64]⟩ ![] (by decide) (constant (F := Ideal) ⟨0, ![]⟩ .f32 0x00000000#32))
    (broadcastInDim ⟨2, ![100000, 1]⟩ ![0] (by decide) cid)
    (broadcastInDim ⟨1, ![100000]⟩ ![] (by decide) (constant (F := Ideal) ⟨0, ![]⟩ .f32 0x3F800000#32))

/-- Result 1: the regional mean `seg / cnt` at `(b, r)`, at every step of the horizon. -/
def reg (x : (⟨4, ![32, 12, 100000, 2]⟩ : Shape).Idx → EReal) (cid : (⟨1, ![100000]⟩ : Shape).Idx → BitVec 32) :
    (⟨3, ![32, 10, 64]⟩ : Shape).Idx → EReal :=
  fun i => Ideal.div (seg x cid (i 0) (i 2)) (cnt cid (ix1 (i 2)))

/-! ## The padded side: what the kernel's 23 tiles sum -/

/-- The mean at `(b, n)` of the padded feature-0 array `[32, 12, 100096]`. -/
def meanP (xp : (⟨3, ![32, 12, 100096]⟩ : Shape).Idx → EReal) (b : Fin 32) (n : Fin 100096) : EReal :=
  Ideal.div (∑ t : Fin 12, xp (ix3 b t n)) twelve

/-- The one-hot entry: `1` when padded node `n`'s id is the word `r`, else `0`. -/
def hotP (cp : (⟨2, ![1, 100096]⟩ : Shape).Idx → BitVec 32) (r : Fin 64) (n : Fin 100096) : EReal :=
  if cp (ix2 0 n) = BitVec.ofNat 32 r.val then 1 else 0

/-- Tile `j`'s contribution to entry `(b, r)`: the tile's 4352 means against the one-hot row `r`. -/
def tile (xp : (⟨3, ![32, 12, 100096]⟩ : Shape).Idx → EReal) (cp : (⟨2, ![1, 100096]⟩ : Shape).Idx → BitVec 32)
    (b : Fin 32) (r : Fin 64) (j : Fin 23) : EReal :=
  ∑ k : Fin 4352, meanP xp b ⟨4352 * j.val + k.val, by have := j.isLt; have := k.isLt; omega⟩
    * hotP cp r ⟨4352 * j.val + k.val, by have := j.isLt; have := k.isLt; omega⟩

/-- The 23 tiles' contributions summed. -/
def segP (xp : (⟨3, ![32, 12, 100096]⟩ : Shape).Idx → EReal) (cp : (⟨2, ![1, 100096]⟩ : Shape).Idx → BitVec 32)
    (b : Fin 32) (r : Fin 64) : EReal :=
  ∑ j : Fin 23, tile xp cp b r j

/-- `xp` is feature 0 of `x` with zeros appended on the node axis. -/
def IsPadX (x : (⟨4, ![32, 12, 100000, 2]⟩ : Shape).Idx → EReal) (xp : (⟨3, ![32, 12, 100096]⟩ : Shape).Idx → EReal) : Prop :=
  ∀ (b : Fin 32) (t : Fin 12) (n : Fin 100096),
    xp (ix3 b t n) = if h : n.val < 100000 then x (ix4 b t ⟨n.val, h⟩ 0) else 0

/-- `cp` is `cid` with the id 64 (no region's) appended. -/
def IsPadC (cid : (⟨1, ![100000]⟩ : Shape).Idx → BitVec 32) (cp : (⟨2, ![1, 100096]⟩ : Shape).Idx → BitVec 32) : Prop :=
  ∀ n : Fin 100096, cp (ix2 0 n) = if h : n.val < 100000 then cid (ix1 ⟨n.val, h⟩) else 64#32

end Cert.SegMean

end
-- ==== Proof.Algebra.lean ====
/-
  The one law that joins the two sides, over the extended reals.

  The kernel sums, tile by tile, EVERY padded node's mean times a one-hot entry (1 when the node's id is the
  word `r`, else 0); the reference sums the means of the nodes whose id is `r`. Since `a · 1 = a` and
  `a · 0 = 0` for every extended real `a` (infinite ones included), the products with 0 drop out, the 96 appended
  nodes (id 64, which is no region's) contribute nothing, and the 23 tiles of 4352 nodes are the 100096 padded
  nodes in order. No finiteness of the inputs is used.
-/
import proofs.«413266_j38517266711057_1_alg».proof.Proof.Spec
import Mathlib.Algebra.BigOperators.Fin
import Mathlib.Logic.Equiv.Fin.Basic
import Mathlib.Data.Fintype.BigOperators

noncomputable section

namespace Cert.SegMean

open Idealize.ShloMosaic Idealize.ShloMosaic.ValueIdx

/-- On a real node the padded array's mean is the mean. -/
theorem meanP_eq_mean (x : (⟨4, ![32, 12, 100000, 2]⟩ : Shape).Idx → EReal)
    (xp : (⟨3, ![32, 12, 100096]⟩ : Shape).Idx → EReal) (hx : IsPadX x xp) (b : Fin 32) (n : Fin 100000) :
    meanP xp b ⟨n.val, by have := n.isLt; omega⟩ = mean x b n := by
  -- both sides divide a sum over the 12 steps by the same word; the sums agree term by term
  unfold meanP mean
  congr 1
  refine Finset.sum_congr rfl fun t _ => ?_
  rw [hx b t ⟨n.val, by have := n.isLt; omega⟩]
  exact dif_pos n.isLt

/-- A double sum over `m` blocks of `n` consecutive naturals is the sum over the first `m * n` naturals:
    the pair `(j, k)` is sent to `n * j + k`, a bijection of `Fin m × Fin n` with `Fin (m * n)`. -/
private theorem sum_blocks {M : Type*} [AddCommMonoid M] (m n : ℕ) (g : ℕ → M) :
    ∑ j : Fin m, ∑ k : Fin n, g (n * j.val + k.val) = ∑ i ∈ Finset.range (m * n), g i := by
  rw [Finset.sum_range, ← Equiv.sum_comp finProdFinEquiv, Fintype.sum_prod_type]
  refine Finset.sum_congr rfl fun j _ => Finset.sum_congr rfl fun k _ => ?_
  simp only [finProdFinEquiv_apply_val]
  rw [Nat.add_comm]

/-- The word 64 is the word of no region `r < 64`: their values as naturals differ. -/
private theorem word64_ne (r : Fin 64) : ¬ (64#32 : BitVec 32) = BitVec.ofNat 32 r.val := by
  intro h
  have h' := congrArg BitVec.toNat h
  have hp : (2 : ℕ) ^ 32 = 4294967296 := by norm_num
  simp only [BitVec.toNat_ofNat, hp] at h'
  have := r.isLt
  omega

/-- On an appended node the one-hot entry is `0`: its id is 64. -/
private theorem hotP_pad (cid : (⟨1, ![100000]⟩ : Shape).Idx → BitVec 32)
    (cp : (⟨2, ![1, 100096]⟩ : Shape).Idx → BitVec 32) (hc : IsPadC cid cp) (r : Fin 64)
    (n : Fin 100096) (hn : ¬ n.val < 100000) : hotP cp r n = 0 := by
  have h : cp (ix2 0 n) = 64#32 := (hc n).trans (dif_neg hn)
  unfold hotP
  rw [h]
  exact if_neg (word64_ne r)

/-- On a real node the one-hot entry tests the node's own id. -/
private theorem hotP_real (cid : (⟨1, ![100000]⟩ : Shape).Idx → BitVec 32)
    (cp : (⟨2, ![1, 100096]⟩ : Shape).Idx → BitVec 32) (hc : IsPadC cid cp) (r : Fin 64) (n : Fin 100000) :
    hotP cp r ⟨n.val, by have := n.isLt; omega⟩
      = if cid (ix1 n) = BitVec.ofNat 32 r.val then 1 else 0 := by
  have h : cp (ix2 0 (⟨n.val, by have := n.isLt; omega⟩ : Fin 100096)) = cid (ix1 n) :=
    (hc ⟨n.val, by have := n.isLt; omega⟩).trans (dif_pos n.isLt)
  unfold hotP
  rw [h]

/-- The summand of the padded sum at the natural number `i` (zero beyond the 100096 padded nodes). -/
private def padTerm (xp : (⟨3, ![32, 12, 100096]⟩ : Shape).Idx → EReal)
    (cp : (⟨2, ![1, 100096]⟩ : Shape).Idx → BitVec 32) (b : Fin 32) (r : Fin 64) (i : ℕ) : EReal :=
  if h : i < 100096 then meanP xp b ⟨i, h⟩ * hotP cp r ⟨i, h⟩ else 0

private theorem padTerm_lt (xp : (⟨3, ![32, 12, 100096]⟩ : Shape).Idx → EReal)
    (cp : (⟨2, ![1, 100096]⟩ : Shape).Idx → BitVec 32) (b : Fin 32) (r : Fin 64) (i : ℕ) (h : i < 100096) :
    padTerm xp cp b r i = meanP xp b ⟨i, h⟩ * hotP cp r ⟨i, h⟩ := by
  unfold padTerm
  exact dif_pos h

/-- The 23 tiles' one-hot sums over the padded arrays are the sum over the nodes of region `r`. -/
theorem segP_eq_seg (x : (⟨4, ![32, 12, 100000, 2]⟩ : Shape).Idx → EReal) (cid : (⟨1, ![100000]⟩ : Shape).Idx → BitVec 32)
    (xp : (⟨3, ![32, 12, 100096]⟩ : Shape).Idx → EReal) (cp : (⟨2, ![1, 100096]⟩ : Shape).Idx → BitVec 32)
    (hx : IsPadX x xp) (hc : IsPadC cid cp) (b : Fin 32) (r : Fin 64) :
    segP xp cp b r = seg x cid b r := by
  -- the tiles' summands are the padded summand at `4352 * j + k`
  have hlt : ∀ (j : Fin 23) (k : Fin 4352), 4352 * j.val + k.val < 100096 := by
    intro j k; have := j.isLt; have := k.isLt; omega
  have h1 : segP xp cp b r
      = ∑ j : Fin 23, ∑ k : Fin 4352, padTerm xp cp b r (4352 * j.val + k.val) := by
    unfold segP tile
    refine Finset.sum_congr rfl fun j _ => Finset.sum_congr rfl fun k _ => ?_
    exact (padTerm_lt xp cp b r _ (hlt j k)).symm
  have h2 : (23 * 4352 : ℕ) = 100000 + 96 := by norm_num
  -- the 96 appended nodes contribute nothing: a mean times 0
  have hpad : ∑ i ∈ Finset.range 96, padTerm xp cp b r (100000 + i) = 0 := by
    refine Finset.sum_eq_zero fun i hi => ?_
    have hi' : i < 96 := Finset.mem_range.mp hi
    have hl : 100000 + i < 100096 := by omega
    have hn : ¬ (⟨100000 + i, hl⟩ : Fin 100096).val < 100000 := by
      show ¬ 100000 + i < 100000
      omega
    rw [padTerm_lt xp cp b r _ hl, hotP_pad cid cp hc r ⟨100000 + i, hl⟩ hn, mul_zero]
  -- on the real nodes: a mean times 1 or 0, which is the sum over the nodes that pass the test
  have hreal : ∑ i ∈ Finset.range 100000, padTerm xp cp b r i = seg x cid b r := by
    rw [Finset.sum_range]
    unfold seg
    rw [Finset.sum_filter]
    refine Finset.sum_congr rfl fun n _ => ?_
    have hl : n.val < 100096 := by have := n.isLt; omega
    rw [padTerm_lt xp cp b r _ hl, meanP_eq_mean x xp hx b n, hotP_real cid cp hc r n,
      mul_ite, mul_one, mul_zero]
  calc segP xp cp b r
      = ∑ j : Fin 23, ∑ k : Fin 4352, padTerm xp cp b r (4352 * j.val + k.val) := h1
    _ = ∑ i ∈ Finset.range (23 * 4352), padTerm xp cp b r i := sum_blocks 23 4352 _
    _ = ∑ i ∈ Finset.range (100000 + 96), padTerm xp cp b r i := by rw [h2]
    _ = ∑ i ∈ Finset.range 100000, padTerm xp cp b r i
          + ∑ i ∈ Finset.range 96, padTerm xp cp b r (100000 + i) := Finset.sum_range_add _ _ _
    _ = seg x cid b r := by rw [hpad, add_zero, hreal]

end Cert.SegMean

end
-- ==== Proof.RefValue.lean ====
/-
  The reference is the specification, at the ideal values.

  Result 0: slice feature 0, sum over the 12 steps from zero, divide by 12, repeat over the horizon.
  Result 1: the same array moved to [node, batch, step], scattered by node id onto zeros [region, batch, step]
  (an id outside 0..63 lands nowhere and is dropped), divided by the per-region counts, moved back to
  [batch, step, region].
-/
import proofs.«413266_j38517266711057_1_alg».proof.Proof.Gen.ReferenceIdeal.Read
import proofs.«413266_j38517266711057_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.SegMean

/-- Result 0 at one index: the host sum from zero over the 12 steps of feature 0, divided by twelve. -/
private theorem ref_pred_at (x : S32x12x100000x2.Idx → EReal) (i : S32x10x100000.Idx) :
    (Read.val_main_v6 (F := Ideal) x : S32x10x100000.Idx → EReal) i = mean x (i 0) (i 2) := by
  rw [Read.val_main_v6_apply, Read.val_main_v5_apply, Read.val_main_v4_apply, Ideal.hostDivf_def,
    Read.val_main_v3_apply, Read.val_main_cst_0_apply, Read.val_main_v2_apply, Read.val_main_cst_apply]
  have hz : (FloatOps.ofBits (F := Ideal) .f32 0x00000000#32 : EReal) = 0 := Ideal.ofBits_zero_f32
  rw [hz, zero_add]
  unfold mean
  refine congrArg (fun s => Ideal.div s _) (Finset.sum_congr rfl fun t _ => ?_)
  rw [Read.val_main_v1_apply, Read.val_main_v0_apply]
  refine congrArg x (funext fun a => Fin.ext ?_)
  have h0 : (i 0).val < 32 := (i 0).isLt
  have h2 : (i 2).val < 100000 := (i 2).isLt
  have ht : t.val < 12 := t.isLt
  match a with
  | ⟨0, _⟩ => show (((i 0).val * 12 + t.val) * 100000 + (i 2).val) / 1200000 = (i 0).val; omega
  | ⟨1, _⟩ => show (((i 0).val * 12 + t.val) * 100000 + (i 2).val) / 100000 % 12 = t.val; omega
  | ⟨2, _⟩ => show (((i 0).val * 12 + t.val) * 100000 + (i 2).val) / 1 % 100000 = (i 2).val; omega
  | ⟨3, _⟩ => rfl

/-- Result 0 of the reference is `pred`. -/
theorem ref_pred (x : S32x12x100000x2.Idx → EReal) :
    (Read.val_main_v6 (F := Ideal) x : S32x10x100000.Idx → EReal) = pred x := by
  funext i
  exact ref_pred_at x i

/-- The dimension numbers of the scatter by node id: update index `(n, b, h)` goes to `(id n, b, h)`. -/
private abbrev D : ScatterDims S64x32x10 S100000x1 S100000x32x10 :=
  scatter_S64x32x10_S100000x1_S100000x32x10_12_0_0_1

/-- Update index `(n, b, h)` reads its one start component at `[n, 0]` of the ids. -/
private theorem siIdx0 (j : S100000x32x10.Idx) (c : Fin D.scatterDimsToOperandDims.length) :
    D.siIdx j c = ix2 (j 0) 0 := by
  have hc : c.val < 1 := c.isLt
  funext b; refine Fin.ext ?_
  match b with
  | ⟨0, _⟩ => rfl
  | ⟨1, _⟩ => show c.val = 0; omega

/-- On the region axis the window starts at the node's id, read signed. -/
private theorem start0 (j : S100000x32x10.Idx) (idx : IVec S100000x1 32) :
    D.start j idx 0 = (idx (ix2 (j 0) 0)).toInt := by
  unfold ScatterDims.start
  rw [dif_pos (show (0 : Fin S64x32x10.rank) ∈ D.scatterDimsToOperandDims from List.mem_singleton.mpr rfl), siIdx0]
  rfl
/-- On the batch and step axes the window starts at zero … -/
private theorem start1 (j : S100000x32x10.Idx) (idx : IVec S100000x1 32) : D.start j idx 1 = 0 := rfl
private theorem start2 (j : S100000x32x10.Idx) (idx : IVec S100000x1 32) : D.start j idx 2 = 0 := rfl
/-- … and the window coordinate is none on the region axis, the update's own on the other two. -/
private theorem window0 (j : S100000x32x10.Idx) : D.window j 0 = 0 := rfl
private theorem window1 (j : S100000x32x10.Idx) : D.window j 1 = (j 1).val := rfl
private theorem window2 (j : S100000x32x10.Idx) : D.window j 2 = (j 2).val := rfl

/-- A 32-bit word read signed is the natural `r < 64` exactly when it is the word `r`. -/
private theorem toInt_eq_iff (w : BitVec 32) (r : Nat) (hr : r < 64) :
    w.toInt = (r : Int) ↔ w = BitVec.ofNat 32 r := by
  have hw := w.isLt
  constructor
  · intro h
    apply BitVec.eq_of_toNat_eq
    rw [BitVec.toNat_ofNat]
    rw [BitVec.toInt_eq_toNat_cond] at h
    split_ifs at h <;> omega
  · rintro rfl
    rw [BitVec.toInt_eq_toNat_cond, BitVec.toNat_ofNat]
    have : r % 2 ^ 32 = r := Nat.mod_eq_of_lt (by omega)
    rw [this, if_pos (by omega)]

/-- Where an update lands: update `(n, b', h')` lands at `(r, b, h)` exactly when node `n`'s id, read signed, is `r`
    and `b' = b`, `h' = h`; an id outside `0 … 63` lands nowhere. -/
private theorem lands_iff (idx : IVec S100000x1 32) (j : S100000x32x10.Idx) (i : S64x32x10.Idx) :
    D.resultIdx? j idx = some i ↔
      (idx (ix2 (j 0) 0)).toInt = ((i 0).val : Int) ∧ (j 1).val = (i 1).val ∧ (j 2).val = (i 2).val := by
  have s0 := start0 j idx
  have s1 := start1 j idx
  have s2 := start2 j idx
  have w0 := window0 j
  have w1 := window1 j
  have w2 := window2 j
  have hi0 : (i 0).val < 64 := (i 0).isLt
  have hi1 : (i 1).val < 32 := (i 1).isLt
  have hi2 : (i 2).val < 10 := (i 2).isLt
  have hj1 : (j 1).val < 32 := (j 1).isLt
  have hj2 : (j 2).val < 10 := (j 2).isLt
  unfold ScatterDims.resultIdx?
  split_ifs with h
  · constructor
    · intro hs
      have hf := Option.some.inj hs
      have f0 : (D.start j idx 0 + (D.window j 0 : Int)).toNat = (i 0).val := congrArg (fun f => (f 0).val) hf
      have f1 : (D.start j idx 1 + (D.window j 1 : Int)).toNat = (i 1).val := congrArg (fun f => (f 1).val) hf
      have f2 : (D.start j idx 2 + (D.window j 2 : Int)).toNat = (i 2).val := congrArg (fun f => (f 2).val) hf
      have g0 := (h 0).1
      refine ⟨?_, ?_, ?_⟩ <;> omega
    · rintro ⟨h0, h1, h2⟩
      refine congrArg some (funext fun a => Fin.ext ?_)
      match a with
      | ⟨0, _⟩ => show (D.start j idx 0 + (D.window j 0 : Int)).toNat = (i 0).val; omega
      | ⟨1, _⟩ => show (D.start j idx 1 + (D.window j 1 : Int)).toNat = (i 1).val; omega
      | ⟨2, _⟩ => show (D.start j idx 2 + (D.window j 2 : Int)).toNat = (i 2).val; omega
  · constructor
    · intro hs; cases hs
    · rintro ⟨h0, h1, h2⟩
      refine absurd (fun a => ?_) h
      match a with
      | ⟨0, _⟩ =>
        show 0 ≤ D.start j idx 0 + (D.window j 0 : Int) ∧ D.start j idx 0 + (D.window j 0 : Int) < ((64 : Nat) : Int)
        omega
      | ⟨1, _⟩ =>
        show 0 ≤ D.start j idx 1 + (D.window j 1 : Int) ∧ D.start j idx 1 + (D.window j 1 : Int) < ((32 : Nat) : Int)
        omega
      | ⟨2, _⟩ =>
        show 0 ≤ D.start j idx 2 + (D.window j 2 : Int) ∧ D.start j idx 2 + (D.window j 2 : Int) < ((10 : Nat) : Int)
        omega

/-- The same with the ids read through their broadcast to `[node, 1]` and the region `r < 64` as a word. -/
private theorem mem_lands (cid : S100000.Idx → BitVec 32) (u : S100000x32x10.Idx) (r : Fin 64) (b : Fin 32) (h : Fin 10) :
    D.resultIdx? u (Read.val_main_v9 (F := Ideal) cid) = some (ix3 r b h) ↔
      cid (ix1 (u 0)) = BitVec.ofNat 32 r.val ∧ (u 1).val = b.val ∧ (u 2).val = h.val := by
  rw [lands_iff, Read.val_main_v9_apply]
  have e : Read.idx_main_v9 (ix2 (u 0) 0) = ix1 (u 0) := by
    funext a; match a with | ⟨0, _⟩ => rfl
  rw [e]
  exact and_congr (toInt_eq_iff _ r.val r.isLt) Iff.rfl

/-- The scatter's result at `(r, b, h)`: zero plus the updates that land there, which are the means at batch row
    `b` of the nodes whose id is the word `r`. The sum is re-indexed by the node coordinate. -/
private theorem scatter_at (x : S32x12x100000x2.Idx → EReal) (cid : S100000.Idx → BitVec 32)
    (r : Fin 64) (b : Fin 32) (h : Fin 10) :
    Read.val_main_v10 (F := Ideal) x cid (ix3 r b h) = seg x cid b r := by
  unfold Read.val_main_v10 Host.scatterAdd
  rw [Ideal.hostScatterAdd_def]
  unfold Ideal.hostScatterAdd
  have hz : (FloatOps.ofBits (F := Ideal) .f32 0x00000000#32 : EReal) = 0 := Ideal.ofBits_zero_f32
  rw [Read.val_main_v8_apply, Read.val_main_cst_1_apply, hz, zero_add]
  unfold seg
  refine Finset.sum_nbij' (fun u => (u 0 : Fin 100000)) (fun n => (ix3 n b h : S100000x32x10.Idx)) ?_ ?_ ?_ ?_ ?_
  · intro u hu
    have hu' := (mem_lands cid u r b h).1 (Finset.mem_filter.1 hu).2
    exact Finset.mem_filter.2 ⟨Finset.mem_univ _, hu'.1⟩
  · intro n hn
    have hn' := (Finset.mem_filter.1 hn).2
    exact Finset.mem_filter.2 ⟨Finset.mem_univ _, (mem_lands cid _ r b h).2 ⟨hn', rfl, rfl⟩⟩
  · intro u hu
    have hu' := (mem_lands cid u r b h).1 (Finset.mem_filter.1 hu).2
    funext a
    match a with
    | ⟨0, _⟩ => rfl
    | ⟨1, _⟩ => exact Fin.ext hu'.2.1.symm
    | ⟨2, _⟩ => exact Fin.ext hu'.2.2.symm
  · intro n hn; rfl
  · intro u hu
    have hu' := (mem_lands cid u r b h).1 (Finset.mem_filter.1 hu).2
    rw [Read.val_main_v7_apply, ref_pred_at]
    have hb : (Read.idx_main_v7 u) 0 = b := Fin.ext hu'.2.1
    have hn : (Read.idx_main_v7 u) 2 = u 0 := rfl
    exact congrArg₂ (mean x) hb hn

/-- Result 1 of the reference is `reg`. -/
theorem ref_reg (x : S32x12x100000x2.Idx → EReal) (cid : S100000.Idx → BitVec 32) :
    (Read.val_main_v18 (F := Ideal) x cid : S32x10x64.Idx → EReal) = reg x cid := by
  funext i
  rw [Read.val_main_v18_apply, Read.val_main_v17_apply, Ideal.hostDivf_def, Read.val_main_v16_apply,
    Read.val_main_v15_apply]
  unfold reg
  have hnum : Read.val_main_v10 (F := Ideal) x cid (Read.idx_main_v18 i) = seg x cid (i 0) (i 2) := by
    have e : Read.idx_main_v18 i = ix3 (i 2) (i 0) (i 1) := by
      funext a; match a with | ⟨0, _⟩ => rfl | ⟨1, _⟩ => rfl | ⟨2, _⟩ => rfl
    rw [e]; exact scatter_at x cid (i 2) (i 0) (i 1)
  have hden : Read.val_main_v14 (F := Ideal) cid (Read.idx_main_v15 (Read.idx_main_v16 (Read.idx_main_v18 i)))
      = cnt cid (ix1 (i 2)) := by
    have e : Read.idx_main_v15 (Read.idx_main_v16 (Read.idx_main_v18 i)) = ix1 (i 2) := by
      funext a; match a with | ⟨0, _⟩ => rfl
    rw [e]; rfl
  rw [hnum, hden]

end Cert.ReferenceIdeal.RefValue

end
-- ==== Proof.KernelHost.lean ====
/-
  The kernel's host side, at the ideal values.

  BEFORE the region the host slices feature 0 out of `x`, appends 96 zero nodes to it and 96 ids `64` to
  `cid`: the two arrays the region's input windows read are the paddings the specification names
  (`IsPadX`, `IsPadC`).
  AFTER the region the host cuts the first result back to 100000 nodes, and divides the accumulated
  regional sums by the per-region node counts, repeating the quotient over the horizon.
-/
import proofs.«413266_j38517266711057_1_alg».proof.Proof.Gen.KernelIdeal.Frame
import proofs.«413266_j38517266711057_1_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost

noncomputable section

namespace Cert.KernelIdeal.HostSide

open Idealize.ShloMosaic Idealize.ShloMosaic.TcCoe Idealize.SL.Sem Idealize.ShloMosaic.ValueIdx
open Cert.KernelIdeal Cert.KernelIdeal.Gen Cert.SegMean

variable (m : (ℓ : Loc nD τ sig) → Buf (Elt Ideal) ℓ)

/-- The first window's array as a term: feature 0 of `x` sliced out, the unit axis dropped, padded. -/
private theorem xp_eq (c : Dev nD) :
    (V m c main_v2 : S32x12x100096.Idx → EReal)
      = pad S32x12x100096 ![0, 0, 0] ![0, 0, 96] ![0, 0, 0]
          (shapeCast S32x12x100000
            (extractStridedSlice S32x12x100000x1 ![0, 0, 0, 0]
              (m ((c.tc : Thread nD τ).loc main_arg0) : S32x12x100000x2.Idx → EReal)
              slices_S32x12x100000x2_S32x12x100000x1_0_0_0_0)
            shapeCasts_S32x12x100000x1_S32x12x100000)
          (sitofp (F := Ideal) .f32 (constantI S_ 32 0#32))
          pads_S32x12x100000_S32x12x100096_000_000_0960 h_S_ := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The first input window's array is feature 0 of `x` with zeros appended on the node axis. -/
theorem xp_isPad (c : Dev nD) :
    IsPadX (m ((c.tc : Thread nD τ).loc main_arg0)) (V m c main_v2 : S32x12x100096.Idx → EReal) := by
  intro b t n
  refine (congrFun (xp_eq m c) (ix3 b t n)).trans ?_
  by_cases h : n.val < 100000
  · rw [dif_pos h]
    refine (pad_apply_of_inside ![0, 0, 0] ![0, 0, 96] ![0, 0, 0] _ _ pads_S32x12x100000_S32x12x100096_000_000_0960 h_S_
      (ix3 b t n) (ix3 b t (⟨n.val, h⟩ : Fin 100000)) (fun a => match a with
        | ⟨0, _⟩ => by show b.val = 0 + b.val * (0 + 1); omega
        | ⟨1, _⟩ => by show t.val = 0 + t.val * (0 + 1); omega
        | ⟨2, _⟩ => by show n.val = 0 + n.val * (0 + 1); omega)).trans ?_
    refine (shapeCast_apply _ shapeCasts_S32x12x100000x1_S32x12x100000 (ix3 b t (⟨n.val, h⟩ : Fin 100000))
      (ix4 b t (⟨n.val, h⟩ : Fin 100000) (0 : Fin 1)) (by
        rewrite [Shape.rowMajor_val_four, Shape.rowMajor_val_three]
        show ((b.val * 12 + t.val) * 100000 + n.val) * 1 + 0 = (b.val * 12 + t.val) * 100000 + n.val
        omega)).trans ?_
    exact extractStridedSlice_apply ![0, 0, 0, 0] _ slices_S32x12x100000x2_S32x12x100000x1_0_0_0_0
      (ix4 b t (⟨n.val, h⟩ : Fin 100000) (0 : Fin 1)) (ix4 b t (⟨n.val, h⟩ : Fin 100000) (0 : Fin 2)) (fun a => match a with
        | ⟨0, _⟩ => by show b.val = 0 + b.val; omega
        | ⟨1, _⟩ => by show t.val = 0 + t.val; omega
        | ⟨2, _⟩ => by show n.val = 0 + n.val; omega
        | ⟨3, _⟩ => by rfl)
  · rw [dif_neg h]
    refine (pad_apply_of_not_inside (s := S32x12x100000) ![0, 0, 0] ![0, 0, 96] ![0, 0, 0] _ _ pads_S32x12x100000_S32x12x100096_000_000_0960 h_S_
      (ix3 b t n) (2 : Fin 3) ?_).trans ?_
    · show ¬(0 ≤ n.val ∧ (n.val - 0) % (0 + 1) = 0 ∧ (n.val - 0) / (0 + 1) < 100000)
      omega
    · show (((0#32 : BitVec 32).toInt : ℝ) : EReal) = 0
      simp

/-- The second window's array as a term: `cid` padded by the word 64, a unit axis put in front. -/
private theorem cp_eq (c : Dev nD) :
    (V m c main_v4 : S1x100096.Idx → BitVec 32)
      = shapeCast S1x100096
          (pad S100096 ![0] ![96] ![0]
            (m ((c.tc : Thread nD τ).loc main_arg1) : S100000.Idx → BitVec 32)
            (constantI S_ 32 64#32) pads_S100000_S100096_0960 h_S_)
          shapeCasts_S100096_S1x100096 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The second input window's array is `cid` with the id 64 appended. -/
theorem cp_isPad (c : Dev nD) :
    IsPadC (m ((c.tc : Thread nD τ).loc main_arg1)) (V m c main_v4 : S1x100096.Idx → BitVec 32) := by
  intro n
  refine (congrFun (cp_eq m c) (ix2 0 n)).trans ?_
  refine (shapeCast_a_1a_apply _ shapeCasts_S100096_S1x100096 (0 : Fin 1) n).trans ?_
  by_cases h : n.val < 100000
  · rw [dif_pos h]
    exact pad_apply_of_inside ![0] ![96] ![0] _ _ pads_S100000_S100096_0960 h_S_ (ix1 n) (ix1 (⟨n.val, h⟩ : Fin 100000))
      (fun a => match a with
        | ⟨0, _⟩ => by show n.val = 0 + n.val * (0 + 1); omega)
  · rw [dif_neg h]
    refine (pad_apply_of_not_inside (s := S100000) ![0] ![96] ![0] _ _ pads_S100000_S100096_0960 h_S_ (ix1 n) (0 : Fin 1) ?_).trans ?_
    · show ¬(0 ≤ n.val ∧ (n.val - 0) % (0 + 1) = 0 ∧ (n.val - 0) / (0 + 1) < 100000)
      omega
    · rfl

/-- What the host tail finds at an output window's array: the array the region left. -/
private theorem tail_arr (c : Dev nD) (w : Fin 4) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c _ _ w

/-- What the host tail finds at `cid`: the launch memory's. -/
private theorem tail_cid (c : Dev nD) :
    Pipeline.withArrays spec0 c (V0 m c) (fun w => (dats m 0 c).arrAt w cfg0.N) (Proc.devRef .tc main_arg1)
      = m ((c.tc : Thread nD τ).loc main_arg1) :=
  (Pipeline.withArrays_of_ne spec0 c (V0 m c) _ main_arg1 (by exact (by decide : ∀ w, Pipeline.arrRef spec0 w ≠ main_arg1))).trans
    (V_main_arg1 m c)

/-- The first result as a term: the slice of the array the region left. -/
private theorem tail_pred_e (c : Dev nD) :
    (Pipeline.afterTail₀ cfgs (dats m) 0 (V0 m) [hostOps1] c main_v6 : S32x10x100000.Idx → EReal)
      = extractStridedSlice S32x10x100000 ![0, 0, 0]
          ((dats m 0 c).arrAt 2 cfg0.N : S32x10x100096.Idx → EReal) slices_S32x10x100096_S32x10x100000_0_0_0 := by
  unfold Pipeline.afterTail₀
  show StableHlo.after hostOps1 _ (Proc.devRef .tc main_v6) = _
  after_results
  exact congrArg (fun A : S32x10x100096.Idx → EReal =>
      extractStridedSlice S32x10x100000 ![0, 0, 0] A slices_S32x10x100096_S32x10x100000_0_0_0) (tail_arr m c 2)

/-- After the region, result 0 is the first output array cut back to the 100000 real nodes. -/
theorem tail_pred (c : Dev nD) (i : S32x10x100000.Idx) :
    (Pipeline.afterTail₀ cfgs (dats m) 0 (V0 m) [hostOps1] c main_v6 : S32x10x100000.Idx → EReal) i
      = ((dats m 0 c).arrAt 2 cfg0.N : S32x10x100096.Idx → EReal)
          (ix3 (i 0) (i 1) ⟨(i 2).val, by have : (i 2).val < 100000 := (i 2).isLt; omega⟩) := by
  refine (congrFun (tail_pred_e m c) i).trans ?_
  exact extractStridedSlice_apply (s := S32x10x100096) ![0, 0, 0] _ slices_S32x10x100096_S32x10x100000_0_0_0 i
    (ix3 (i 0) (i 1) ⟨(i 2).val, by have : (i 2).val < 100000 := (i 2).isLt; omega⟩) (fun a => match a with
    | ⟨0, _⟩ => by show (i 0).val = 0 + (i 0).val; omega
    | ⟨1, _⟩ => by show (i 1).val = 0 + (i 1).val; omega
    | ⟨2, _⟩ => by show (i 2).val = 0 + (i 2).val; omega)

/-- The node counts as the host tail spells them are the specification's `cnt`: the same scatter of ones onto zeros. -/
private theorem cnt_eq (cid : S100000.Idx → BitVec 32) :
    Host.scatterAdd (F := Ideal) (φ := .f32) scatter_S64_S100000x1_S100000_n_0_0_1
        (broadcastInDim S64 ![] bcast_S_S64 (constant (F := Ideal) S_ .f32 0x00000000#32))
        (broadcastInDim S100000x1 ![0] bcast_S100000_S100000x1_0 cid)
        (broadcastInDim S100000 ![] bcast_S_S100000 (constant (F := Ideal) S_ .f32 0x3F800000#32))
      = cnt cid := rfl

/-- The quotient of the regional sums `A` by the counts `k`, repeated over the horizon. -/
private def regOf (A : S32x64.Idx → EReal) (k : S64.Idx → EReal) : S32x10x64.Idx → EReal :=
  broadcastInDim S32x10x64 ![0, 1, 2] bcast_S32x1x64_S32x10x64_0_1_2
    (broadcastInDim S32x1x64 ![0, 2] bcast_S32x64_S32x1x64_0_2
      (Host.divf (F := Ideal) (s := S32x64) (φ := .f32) A
        (broadcastInDim S32x64 ![0, 1] bcast_S1x64_S32x64_0_1
          (broadcastInDim S1x64 ![1] bcast_S64_S1x64_1 k))))

/-- At `(b, h, r)` it is `A (b, r) / k r`, whatever the step `h`. -/
private theorem regOf_apply (A : S32x64.Idx → EReal) (k : S64.Idx → EReal) (i : S32x10x64.Idx) :
    regOf A k i = Ideal.div (A (ix2 (i 0) (i 2))) (k (ix1 (i 2))) := by
  unfold regOf
  refine (broadcastInDim_apply _ bcast_S32x1x64_S32x10x64_0_1_2 _ i (ix3 (i 0) (0 : Fin 1) (i 2)) (fun a => match a with
      | ⟨0, _⟩ => by show (i 0).val = if (32 : Nat) = 1 then 0 else (i 0).val; rw [if_neg (by decide)]
      | ⟨1, _⟩ => by show 0 = if (1 : Nat) = 1 then 0 else (i 1).val; rw [if_pos rfl]
      | ⟨2, _⟩ => by show (i 2).val = if (64 : Nat) = 1 then 0 else (i 2).val; rw [if_neg (by decide)])).trans ?_
  refine (broadcastInDim_apply _ bcast_S32x64_S32x1x64_0_2 _ (ix3 (i 0) (0 : Fin 1) (i 2)) (ix2 (i 0) (i 2)) (fun a => match a with
      | ⟨0, _⟩ => by show (i 0).val = if (32 : Nat) = 1 then 0 else (i 0).val; rw [if_neg (by decide)]
      | ⟨1, _⟩ => by show (i 2).val = if (64 : Nat) = 1 then 0 else (i 2).val; rw [if_neg (by decide)])).trans ?_
  show Ideal.div (A (ix2 (i 0) (i 2)))
      (broadcastInDim S32x64 ![0, 1] bcast_S1x64_S32x64_0_1 (broadcastInDim S1x64 ![1] bcast_S64_S1x64_1 k) (ix2 (i 0) (i 2))) = _
  refine congrArg (Ideal.div (A (ix2 (i 0) (i 2)))) ?_
  refine (broadcastInDim_apply _ bcast_S1x64_S32x64_0_1 _ (ix2 (i 0) (i 2)) (ix2 (0 : Fin 1) (i 2)) (fun a => match a with
      | ⟨0, _⟩ => by show 0 = if (1 : Nat) = 1 then 0 else (i 0).val; rw [if_pos rfl]
      | ⟨1, _⟩ => by show (i 2).val = if (64 : Nat) = 1 then 0 else (i 2).val; rw [if_neg (by decide)])).trans ?_
  exact broadcastInDim_apply _ bcast_S64_S1x64_1 _ (ix2 (0 : Fin 1) (i 2)) (ix1 (i 2)) (fun a => match a with
      | ⟨0, _⟩ => by show (i 2).val = if (64 : Nat) = 1 then 0 else (i 2).val; rw [if_neg (by decide)])

/-- The second result as a term: the tail's operations over the array the region left and over `cid`. -/
private theorem tail_reg_e (c : Dev nD) :
    (Pipeline.afterTail₀ cfgs (dats m) 0 (V0 m) [hostOps1] c main_v15 : S32x10x64.Idx → EReal)
      = regOf ((dats m 0 c).arrAt 3 cfg0.N) (cnt (m ((c.tc : Thread nD τ).loc main_arg1))) := by
  unfold Pipeline.afterTail₀
  show StableHlo.after hostOps1 _ (Proc.devRef .tc main_v15) = _
  after_results
  have h3 : Pipeline.withArrays (cfgs 0).spec c (V0 m c) (fun w => (dats m 0 c).arrAt w (cfgs 0).N) (Proc.devRef .tc main_v5_1)
      = (dats m 0 c).arrAt 3 cfg0.N := tail_arr m c 3
  have h1 : Pipeline.withArrays (cfgs 0).spec c (V0 m c) (fun w => (dats m 0 c).arrAt w (cfgs 0).N) (Proc.devRef .tc main_arg1)
      = m ((c.tc : Thread nD τ).loc main_arg1) := tail_cid m c
  rw [h3, h1]
  exact congrArg (regOf _) (cnt_eq _)

/-- After the region, result 1 is the second output array (the regional sums) over the node counts. -/
theorem tail_reg (c : Dev nD) (i : S32x10x64.Idx) :
    (Pipeline.afterTail₀ cfgs (dats m) 0 (V0 m) [hostOps1] c main_v15 : S32x10x64.Idx → EReal) i
      = Ideal.div (((dats m 0 c).arrAt 3 cfg0.N : S32x64.Idx → EReal) (ix2 (i 0) (i 2)))
          (cnt (m ((c.tc : Thread nD τ).loc main_arg1)) (ix1 (i 2))) := by
  exact (congrFun (tail_reg_e m c) i).trans (regOf_apply _ _ i)

end Cert.KernelIdeal.HostSide

end
-- ==== Proof.KernelPieces.lean ====
/-
  What the kernel body leaves behind at one grid point, in each of its three control cases (first tile of a
  row block: the accumulator is reset; a middle tile; the last tile: the accumulator is copied out).

  In every case the first output's block is the tile's means repeated over the horizon (one covering store),
  and the accumulator ends at "what it held, plus the tile's one-hot product" (one covering store of a payload
  that read the accumulator back); in the first case "what it held" is the zero block just stored, in the last
  case the second output's block is a copy of the accumulator after that store. Stated for any float
  instance, over the body's named payloads.
-/
import proofs.«413266_j38517266711057_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first output's block: the tile's means, at every step of the horizon -/

theorem predBlock_A (c : Dev nD) (i : grid0.Coords) (a2 : Memref sig .tc .vmem S16x12x4352 .f32) (h2 : a2.IsWhole) (a3 : Memref sig .tc .vmem S1x4352 .i32) (h3 : a3.IsWhole) (a4 : Memref sig .tc .vmem S16x10x4352 .f32) (h4 : a4.IsWhole) (a5 : Memref sig .tc .vmem S16x64 .f32) (h5 : a5.IsWhole) (a6 : Memref sig .tc .vmem S16x64 .f32) (h6 : a6.IsWhole) (hc0 : cond0_0 i) (hc1 : ¬cond0_1 i) (x0 : Vec F S16x12x4352 .f32) (x1 : Vec F S1x4352 .i32) :
    out0_A_2 c i a2 h2 a3 h3 a4 h4 a5 h5 a6 h6 hc0 hc1 x0 x1 = k0_pay3 x0 := by
  unfold out0_A_2
  rw [View.read_writes_eq_canon _ _ _ (cover0_A_2 c i a2 h2 a3 h3 a4 h4 a5 h5 a6 h6 hc0 hc1 x0 x1)]
  unfold kernelRun0_A
  dsimp only
  sl_unfold_words
  rw [View.canon_unit_zero hz3]
  simp only [View.readAt_eq_ld, h2.read_unread, View.ld_unit_zero (S := S16x12x4352) hz3]

theorem predBlock_B (c : Dev nD) (i : grid0.Coords) (a2 : Memref sig .tc .vmem S16x12x4352 .f32) (h2 : a2.IsWhole) (a3 : Memref sig .tc .vmem S1x4352 .i32) (h3 : a3.IsWhole) (a4 : Memref sig .tc .vmem S16x10x4352 .f32) (h4 : a4.IsWhole) (a5 : Memref sig .tc .vmem S16x64 .f32) (h5 : a5.IsWhole) (a6 : Memref sig .tc .vmem S16x64 .f32) (h6 : a6.IsWhole) (hc0 : ¬cond0_0 i) (hc1 : ¬cond0_1 i) (x0 : Vec F S16x12x4352 .f32) (x1 : Vec F S1x4352 .i32) (xs0 : Vec F S16x64 .f32) :
    out0_B_2 c i a2 h2 a3 h3 a4 h4 a5 h5 a6 h6 hc0 hc1 x0 x1 xs0 = k0_pay3 x0 := by
  unfold out0_B_2
  rw [View.read_writes_eq_canon _ _ _ (cover0_B_2 c i a2 h2 a3 h3 a4 h4 a5 h5 a6 h6 hc0 hc1 x0 x1 xs0)]
  unfold kernelRun0_B
  dsimp only
  sl_unfold_words
  rw [View.canon_unit_zero hz3]
  simp only [View.readAt_eq_ld, h2.read_unread, View.ld_unit_zero (S := S16x12x4352) hz3]

theorem predBlock_C (c : Dev nD) (i : grid0.Coords) (a2 : Memref sig .tc .vmem S16x12x4352 .f32) (h2 : a2.IsWhole) (a3 : Memref sig .tc .vmem S1x4352 .i32) (h3 : a3.IsWhole) (a4 : Memref sig .tc .vmem S16x10x4352 .f32) (h4 : a4.IsWhole) (a5 : Memref sig .tc .vmem S16x64 .f32) (h5 : a5.IsWhole) (a6 : Memref sig .tc .vmem S16x64 .f32) (h6 : a6.IsWhole) (hc0 : ¬cond0_0 i) (hc1 : cond0_1 i) (x0 : Vec F S16x12x4352 .f32) (x1 : Vec F S1x4352 .i32) (xs0 : Vec F S16x64 .f32) :
    out0_C_2 c i a2 h2 a3 h3 a4 h4 a5 h5 a6 h6 hc0 hc1 x0 x1 xs0 = k0_pay3 x0 := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, View.ld_unit_zero (S := S16x12x4352) hz3]

/-! ## The accumulator after the point -/

theorem acc_A (c : Dev nD) (i : grid0.Coords) (a2 : Memref sig .tc .vmem S16x12x4352 .f32) (h2 : a2.IsWhole) (a3 : Memref sig .tc .vmem S1x4352 .i32) (h3 : a3.IsWhole) (a4 : Memref sig .tc .vmem S16x10x4352 .f32) (h4 : a4.IsWhole) (a5 : Memref sig .tc .vmem S16x64 .f32) (h5 : a5.IsWhole) (a6 : Memref sig .tc .vmem S16x64 .f32) (h6 : a6.IsWhole) (hc0 : cond0_0 i) (hc1 : ¬cond0_1 i) (x0 : Vec F S16x12x4352 .f32) (x1 : Vec F S1x4352 .i32) :
    sout0_A_0 c i a2 h2 a3 h3 a4 h4 a5 h5 a6 h6 hc0 hc1 x0 x1 = k0_pay4 x0 x1 k0_pay1 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S16x64) hz2]
  simp only [View.readAt_eq_ld, h2.read_unread, h3.read_unread, View.ld_unit_zero (S := S16x12x4352) hz3,
    View.ld_unit_zero (S := S1x4352) hz2, View.readCov_unit_zero (S := S16x64) _ hz2]

theorem acc_B (c : Dev nD) (i : grid0.Coords) (a2 : Memref sig .tc .vmem S16x12x4352 .f32) (h2 : a2.IsWhole) (a3 : Memref sig .tc .vmem S1x4352 .i32) (h3 : a3.IsWhole) (a4 : Memref sig .tc .vmem S16x10x4352 .f32) (h4 : a4.IsWhole) (a5 : Memref sig .tc .vmem S16x64 .f32) (h5 : a5.IsWhole) (a6 : Memref sig .tc .vmem S16x64 .f32) (h6 : a6.IsWhole) (hc0 : ¬cond0_0 i) (hc1 : ¬cond0_1 i) (x0 : Vec F S16x12x4352 .f32) (x1 : Vec F S1x4352 .i32) (xs0 : Vec F S16x64 .f32) :
    sout0_B_0 c i a2 h2 a3 h3 a4 h4 a5 h5 a6 h6 hc0 hc1 x0 x1 xs0 = k0_pay4 x0 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S16x12x4352) hz3,
    View.ld_unit_zero (S := S1x4352) hz2, View.ld_unit_zero (S := S16x64) hz2]

theorem acc_C (c : Dev nD) (i : grid0.Coords) (a2 : Memref sig .tc .vmem S16x12x4352 .f32) (h2 : a2.IsWhole) (a3 : Memref sig .tc .vmem S1x4352 .i32) (h3 : a3.IsWhole) (a4 : Memref sig .tc .vmem S16x10x4352 .f32) (h4 : a4.IsWhole) (a5 : Memref sig .tc .vmem S16x64 .f32) (h5 : a5.IsWhole) (a6 : Memref sig .tc .vmem S16x64 .f32) (h6 : a6.IsWhole) (hc0 : ¬cond0_0 i) (hc1 : cond0_1 i) (x0 : Vec F S16x12x4352 .f32) (x1 : Vec F S1x4352 .i32) (xs0 : Vec F S16x64 .f32) :
    sout0_C_0 c i a2 h2 a3 h3 a4 h4 a5 h5 a6 h6 hc0 hc1 x0 x1 xs0 = k0_pay4 x0 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S16x12x4352) hz3,
    View.ld_unit_zero (S := S1x4352) hz2, View.ld_unit_zero (S := S16x64) hz2]

/-! ## The second output's block at the last tile: the accumulator, copied out -/

theorem regBlock_C (c : Dev nD) (i : grid0.Coords) (a2 : Memref sig .tc .vmem S16x12x4352 .f32) (h2 : a2.IsWhole) (a3 : Memref sig .tc .vmem S1x4352 .i32) (h3 : a3.IsWhole) (a4 : Memref sig .tc .vmem S16x10x4352 .f32) (h4 : a4.IsWhole) (a5 : Memref sig .tc .vmem S16x64 .f32) (h5 : a5.IsWhole) (a6 : Memref sig .tc .vmem S16x64 .f32) (h6 : a6.IsWhole) (hc0 : ¬cond0_0 i) (hc1 : cond0_1 i) (x0 : Vec F S16x12x4352 .f32) (x1 : Vec F S1x4352 .i32) (xs0 : Vec F S16x64 .f32) :
    out0_C_3 c i a2 h2 a3 h3 a4 h4 a5 h5 a6 h6 hc0 hc1 x0 x1 xs0 = k0_pay4 x0 x1 xs0 := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S16x12x4352) hz3,
    View.ld_unit_zero (S := S1x4352) hz2, View.ld_unit_zero (S := S16x64) hz2, View.readCov_unit_zero (S := S16x64) _ hz2]

end Cert.KernelIdeal.Pieces

end
-- ==== Proof.LibDotT.lean ====
/-
  The product of an M × K matrix by the TRANSPOSE of an N × K matrix, read at an index.

  A product whose dimension numbers contract axis 1 of the left operand with axis 1 of the right and carry no
  batch axis ("mk,nk->mn") has, at (a, b), the value Σ_κ l (a, κ) · r (b, κ). Stated for any dimension-numbers
  record whose lists have those values, generically in the sizes and the operands' formats, at the ideal values
  (a float is an extended real): for the bare sum over the record's contraction index, and for the accumulating
  block product that reduces to it.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- A product record of an M × K by an N × K matrix whose lists are those of the transposed-right product (contract
    axis 1 of the left with axis 1 of the right, no batch axis) is that product's record: the lists agree and the
    well-formedness is a proposition. -/
theorem dot_eq_transposedRhs {M K N : Nat} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = []) :
    d = DotDims.transposedRhs M K N := by
  cases d
  simp only at hlc hrc hln hrn hlb hrb
  subst hlc hrc hln hrn hlb hrb
  rfl

/-- THE CONTRACTION'S SUM AT (a, b) for the transposed-right record: Σ_κ l (a, κ) · r (b, κ). -/
theorem contr_sum_transposedRhs {M K N : Nat} {φ₁ φ₂ : FTy}
    (l : FVec Ideal ⟨2, ![M, K]⟩ φ₁) (r : FVec Ideal ⟨2, ![N, K]⟩ φ₂) (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ κ : Fin K, l (ix2 a κ) * r (ix2 b κ) := by
  rw [← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The same for ANY record with the transposed-right lists. -/
theorem contr_sum_cols {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : FVec Ideal ⟨2, ![M, K]⟩ φ₁) (r : FVec Ideal ⟨2, ![N, K]⟩ φ₂) (a : Fin M) (b : Fin N) :
    ∑ k : d.contr.Idx, l (d.lhsIdx (ix2 a b) k) * r (d.rhsIdx (ix2 a b) k) = ∑ κ : Fin K, l (ix2 a κ) * r (ix2 b κ) := by
  rw [dot_eq_transposedRhs d hlc hrc hln hrn hlb hrb]
  exact contr_sum_transposedRhs l r a b

/-- THE ACCUMULATING BLOCK PRODUCT READ AT (a, b): the accumulator's entry plus Σ_κ l (a, κ) · r (b, κ). -/
theorem matmul_cols_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (acc : FVec Ideal ⟨2, ![M, N]⟩ .f32)
    (a : Fin M) (b : Fin N) :
    FloatOps.matmul d prec l r acc (ix2 a b) = acc (ix2 a b) + ∑ κ : Fin K, l (ix2 a κ) * r (ix2 b κ) := by
  rw [Ideal.matmul_apply]
  exact congrArg (acc (ix2 a b) + ·) (contr_sum_cols d hlc hrc hln hrn hlb hrb l r a b)

end Cert.LibDotT

end
-- ==== Proof.KernelPayload.lean ====
/-
  The body's payloads read at an index, at the ideal values.

  * the tile's mean at (p, k): the sum over the 12 time steps of the input block at (p, t, k), divided by 12;
  * the first output's block at (p, h, k): that mean, whatever the step h;
  * the one-hot entry at (r, k): 1 when the tile's k-th id is the word r, else 0 (a compare, widened, converted);
  * the accumulator's update at (p, r): what it held there plus Σₖ mean (p, k) · one-hot (r, k) — the block
    product contracts the node axis of both operands, and the format changes on the way are the identity.
-/
import proofs.«413266_j38517266711057_1_alg».proof.Proof.Gen.KernelIdeal.Skeleton
import proofs.«413266_j38517266711057_1_alg».proof.Proof.Spec
import proofs.«413266_j38517266711057_1_alg».proof.Proof.LibDotT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.SegMean

/-- Inserting the step t at axis 1 of (p, k) gives (p, t, k). -/
theorem lift_eq (h : S16x12x4352.Reduces [1] S16x4352) (p : Fin 16) (k : Fin 4352) (t : Fin 12) :
    h.lift (ix2 p k) t = ix3 p t k := by
  funext a; apply Fin.ext
  match a with
  | ⟨0, _⟩ => rfl
  | ⟨1, _⟩ => rfl
  | ⟨2, _⟩ => rfl

/-- The tile's mean at (p, k). -/
theorem tileMean_apply (v3 : Vec Ideal S16x12x4352 .f32) (p : Fin 16) (k : Fin 4352) :
    k0_pay2 (F := Ideal) v3 (ix2 p k) = Ideal.div (∑ t : Fin 12, v3 (ix3 p t k)) twelve := by
  unfold k0_pay2
  show Ideal.div (multiReduction (F := Ideal) .add [1] S16x4352 (shapeCast S16x12x4352 v3 shapeCasts_S16x12x4352_S16x12x4352) 0x00000000#32
      reduces_S16x12x4352_S16x4352 (.inl rfl) rfl (ix2 p k)) twelve = _
  rw [shapeCast_self]
  refine congrArg (fun s => Ideal.div s twelve) ?_
  refine (Ideal.multiReduction_add_single v3 0x00000000#32 reduces_S16x12x4352_S16x4352 (.inl rfl) rfl (ix2 p k)).trans ?_
  exact Finset.sum_congr rfl fun t _ => congrArg v3 (lift_eq reduces_S16x12x4352_S16x4352 p k t)

/-- The first output's block at (p, h, k) is the tile's mean at (p, k). -/
theorem predPay_apply (v3 : Vec Ideal S16x12x4352 .f32) (p : Fin 16) (h : Fin 10) (k : Fin 4352) :
    k0_pay3 (F := Ideal) v3 (ix3 p h k) = k0_pay2 (F := Ideal) v3 (ix2 p k) := by
  unfold k0_pay3
  show broadcastTo S16x10x4352 (shapeCast S16x1x4352 (shapeCast S16x1x4352 (k0_pay2 (F := Ideal) v3) shapeCasts_S16x4352_S16x1x4352)
      shapeCasts_S16x1x4352_S16x1x4352) broadcasts_S16x1x4352_S16x10x4352 (ix3 p h k) = _
  rw [shapeCast_self]
  refine (broadcastTo_apply _ broadcasts_S16x1x4352_S16x10x4352 (ix3 p h k) (ix3 p (0 : Fin 1) k) (fun a => ?_)).trans ?_
  · match a with
    | ⟨0, _⟩ => rfl
    | ⟨1, _⟩ => rfl
    | ⟨2, _⟩ => rfl
  · exact shapeCast_apply _ shapeCasts_S16x4352_S16x1x4352 (ix3 p (0 : Fin 1) k) (ix2 p k) (by
      rw [Shape.rowMajor_val_three, Shape.rowMajor_val_two]
      show p.val * 4352 + k.val = (p.val * 1 + 0) * 4352 + k.val
      omega)

/-- A word compare, widened to 32 bits and converted to a float, is 1 on equal words and 0 otherwise. -/
theorem hotWord (w v : BitVec 32) :
    ((((IntOp.cmpi .eq w v).setWidth 32).toInt : ℝ) : EReal) = if w = v then 1 else 0 := by
  by_cases h : w = v
  · subst h
    simp [IntOp.cmpi]
  · have hb : (w == v) = false := by simpa using h
    simp [IntOp.cmpi, hb, h]

/-- The one-hot entry at (r, k). -/
theorem hot_apply (v12 : Vec Ideal S1x4352 .i32) (r : Fin 64) (k : Fin 4352) :
    (truncf (F := Ideal) .bf16 (sitofp (F := Ideal) .f32 (extui 32 (cmpi .eq
        (broadcastTo S64x4352 (shapeCast S1x4352 v12 shapeCasts_S1x4352_S1x4352) broadcasts_S1x4352_S64x4352)
        (iota .tc S64x4352 32 [0] iota_S64x4352_d0_w32)) natLt_1_32)) bitsLt_bf16_f32 : FVec Ideal S64x4352 .bf16) (ix2 r k)
      = if v12 (ix2 0 k) = BitVec.ofNat 32 r.val then 1 else 0 := by
  rw [shapeCast_self]
  show ((((IntOp.cmpi .eq (broadcastTo S64x4352 v12 broadcasts_S1x4352_S64x4352 (ix2 r k))
      (iota .tc S64x4352 32 [0] iota_S64x4352_d0_w32 (ix2 r k))).setWidth 32).toInt : ℝ) : EReal) = _
  rw [hotWord, broadcastTo_1b_ab_apply]
  have hi : iota .tc S64x4352 32 [0] iota_S64x4352_d0_w32 (ix2 r k) = BitVec.ofNat 32 r.val := by
    show BitVec.ofNat 32 (0 * 64 + r.val) = _
    rw [Nat.zero_mul, Nat.zero_add]
  rw [hi]

/-- The zero block the reset stores is 0 everywhere. -/
theorem zeroPay_apply (i : S16x64.Idx) : k0_pay1 (F := Ideal) i = 0 := by
  unfold k0_pay1
  rw [shapeCast_self]
  show Ideal.ofBits .f32 0x00000000#32 = 0
  exact Ideal.ofBits_zero_f32

/-- The accumulator's update at (p, r). -/
theorem accPay_apply (v3 : Vec Ideal S16x12x4352 .f32) (v12 : Vec Ideal S1x4352 .i32) (v22 : Vec Ideal S16x64 .f32)
    (p : Fin 16) (r : Fin 64) :
    k0_pay4 (F := Ideal) v3 v12 v22 (ix2 p r)
      = v22 (ix2 p r) + ∑ k : Fin 4352, k0_pay2 (F := Ideal) v3 (ix2 p k) * (if v12 (ix2 0 k) = BitVec.ofNat 32 r.val then 1 else 0) := by
  unfold k0_pay4
  rw [shapeCast_self]
  refine congrArg (v22 (ix2 p r) + ·) ?_
  refine (LibDotT.matmul_cols_apply dot_S16x4352_S64x4352_S16x64_1_1_0_0_n_n rfl rfl rfl rfl rfl rfl none _ _ _ p r).trans ?_
  rw [constant_apply, Ideal.ofBits_zero_f32, zero_add]
  refine Finset.sum_congr rfl fun k _ => ?_
  rw [hot_apply]
  rfl

end Cert.KernelIdeal.Payload

end
-- ==== Proof.KernelValue.lean ====
/-
  What the kernel's two output arrays hold after the region, at the ideal values, as functions of the two
  padded arrays its input windows read.

  The grid has 2 × 23 points, point t = 23·q + s being tile s of batch rows 16q … 16q + 15. At every point the
  first output's block (16 rows, all 10 steps, the tile's 4352 nodes) is written back: it holds the tile's means.
  The accumulator is reset at s = 0 and each point adds its tile's one-hot sums to it, so after point 23·q + s it
  holds the sums of tiles 0 … s; at s = 22 it is copied to the second output's block (rows 16q … 16q + 15, all
  64 regions), which is written back there. The blocks written back tile both arrays.
-/
import proofs.«413266_j38517266711057_1_alg».proof.Proof.Gen.KernelIdeal.Frame
import proofs.«413266_j38517266711057_1_alg».proof.Proof.Spec
import proofs.«413266_j38517266711057_1_alg».proof.Proof.KernelPieces
import proofs.«413266_j38517266711057_1_alg».proof.Proof.KernelPayload
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.SegMean

variable (m : (ℓ : Loc nD τ sig) → Buf (Elt Ideal) ℓ)

/-- The padded feature-0 array the first input window reads. -/
abbrev xp (c : Dev nD) : S32x12x100096.Idx → EReal := V m c main_v2
/-- The padded id row the second input window reads. -/
abbrev cp (c : Dev nD) : S1x100096.Idx → BitVec 32 := V m c main_v4

theorem hN : cfg0.N = 46 := N_0

/-- The printed index maps, decided over the grid: at point t = 23·q + s the row-block index is q and the
    tile index is s, for every window that has that axis; the other block indices are 0. -/
theorem idx_facts : ∀ t : Fin cfg0.N,
    win0_0.index t (0 : Fin 3) = t.val / 23 ∧ win0_0.index t (1 : Fin 3) = 0 ∧ win0_0.index t (2 : Fin 3) = t.val % 23
    ∧ win0_1.index t (0 : Fin 2) = 0 ∧ win0_1.index t (1 : Fin 2) = t.val % 23
    ∧ win0_2.index t (0 : Fin 3) = t.val / 23 ∧ win0_2.index t (1 : Fin 3) = 0 ∧ win0_2.index t (2 : Fin 3) = t.val % 23
    ∧ win0_3.index t (0 : Fin 2) = t.val / 23 ∧ win0_3.index t (1 : Fin 2) = 0 :=
  (by decide +kernel : ∀ t : Fin grid0.N, _)

/-! ## The input blocks, read off the padded arrays -/

/-- The first input's block at point t, at (p, s, k): row 16·(t / 23) + p, step s, node 4352·(t % 23) + k. -/
theorem xblk_apply (c : Dev nD) (t : Fin cfg0.N) (p : Fin 16) (s : Fin 12) (k : Fin 4352) :
    (iblk m c 0 t : S16x12x4352.Idx → EReal) (ix3 p s k)
      = xp m c (ix3 ⟨16 * (t.val / 23) + p.val, by have := t.isLt; have := hN; have := p.isLt; omega⟩ s
          ⟨4352 * (t.val % 23) + k.val, by have := k.isLt; omega⟩) := by
  obtain ⟨e0, e1, e2, -⟩ := idx_facts t
  unfold iblk
  rw [View.read_apply]
  show V m c main_v2 _ = V m c main_v2 _
  refine congrArg (V m c main_v2) (funext fun a => Fin.ext ?_)
  match a with
  | ⟨0, _⟩ => show win0_0.index t (0 : Fin 3) * 16 + 1 * p.val = 16 * (t.val / 23) + p.val; rw [e0]; omega
  | ⟨1, _⟩ => show win0_0.index t (1 : Fin 3) * 12 + 1 * s.val = s.val; rw [e1]; omega
  | ⟨2, _⟩ => show win0_0.index t (2 : Fin 3) * 4352 + 1 * k.val = 4352 * (t.val % 23) + k.val; rw [e2]; omega

/-- The second input's block at point t, at (0, k): node 4352·(t % 23) + k of the id row. -/
theorem cblk_apply (c : Dev nD) (t : Fin cfg0.N) (k : Fin 4352) :
    (iblk m c 1 t : S1x4352.Idx → BitVec 32) (ix2 (0 : Fin 1) k)
      = cp m c (ix2 (0 : Fin 1) ⟨4352 * (t.val % 23) + k.val, by have := k.isLt; omega⟩) := by
  obtain ⟨-, -, -, e3, e4, -⟩ := idx_facts t
  unfold iblk
  rw [View.read_apply]
  show V m c main_v4 _ = V m c main_v4 _
  refine congrArg (V m c main_v4) (funext fun a => Fin.ext ?_)
  match a with
  | ⟨0, _⟩ => show win0_1.index t (0 : Fin 2) * 1 + 1 * 0 = 0; rw [e3]
  | ⟨1, _⟩ => show win0_1.index t (1 : Fin 2) * 4352 + 1 * k.val = 4352 * (t.val % 23) + k.val; rw [e4]; omega

/-- The tile's mean at point t, at (p, k), is the padded array's mean at row 16·(t / 23) + p, node 4352·(t % 23) + k. -/
theorem tileMean_at (c : Dev nD) (t : Fin cfg0.N) (p : Fin 16) (k : Fin 4352) :
    k0_pay2 (F := Ideal) (iblk m c 0 t) (ix2 p k)
      = meanP (xp m c) ⟨16 * (t.val / 23) + p.val, by have := t.isLt; have := hN; have := p.isLt; omega⟩
          ⟨4352 * (t.val % 23) + k.val, by have := k.isLt; omega⟩ := by
  rw [Payload.tileMean_apply]
  unfold meanP
  exact congrArg (fun s => Ideal.div s twelve) (Finset.sum_congr rfl fun s _ => xblk_apply m c t p s k)

/-- Point t's addend to the accumulator at (p, r) is tile t % 23's contribution to (16·(t / 23) + p, r). -/
theorem tile_at (c : Dev nD) (t : Fin cfg0.N) (p : Fin 16) (r : Fin 64) :
    ∑ k : Fin 4352, k0_pay2 (F := Ideal) (iblk m c 0 t) (ix2 p k)
        * (if (iblk m c 1 t : S1x4352.Idx → BitVec 32) (ix2 (0 : Fin 1) k) = BitVec.ofNat 32 r.val then (1 : EReal) else 0)
      = tile (xp m c) (cp m c) ⟨16 * (t.val / 23) + p.val, by have := t.isLt; have := hN; have := p.isLt; omega⟩ r
          ⟨t.val % 23, Nat.mod_lt _ (by decide)⟩ := by
  unfold tile hotP
  refine Finset.sum_congr rfl fun k _ => ?_
  rw [tileMean_at, cblk_apply]

/-! ## The accumulator, point by point -/

/-- What the accumulator holds after point n. -/
abbrev accAfter (c : Dev nD) (n : ℕ) (h : n < cfg0.N) : S16x64.Idx → EReal := (outsAt0 m c n h).2.2

/-- What a resetting point leaves in it: the update applied to the zero block. -/
abbrev accReset (c : Dev nD) (n : ℕ) (h : n < cfg0.N) : S16x64.Idx → EReal :=
  k0_pay4 (F := Ideal) (iblk m c 0 ⟨n, h⟩) (iblk m c 1 ⟨n, h⟩) (k0_pay1 (F := Ideal))

/-- What any other point leaves in it: the update applied to what it held. -/
abbrev accStep (c : Dev nD) (n : ℕ) (h : n < cfg0.N) (acc : S16x64.Idx → EReal) : S16x64.Idx → EReal :=
  k0_pay4 (F := Ideal) (iblk m c 0 ⟨n, h⟩) (iblk m c 1 ⟨n, h⟩) acc

theorem accAfter_congr (c : Dev nD) {u v : ℕ} (hu : u < cfg0.N) (hv : v < cfg0.N) (e : u = v) :
    accAfter m c u hu = accAfter m c v hv := by subst e; rfl

/-- At the first tile of a row block the accumulator is reset. -/
theorem acc_reset (c : Dev nD) (n : ℕ) (h : n < cfg0.N) (h0 : n % 23 = 0) : accAfter m c n h = accReset m c n h := by
  have h1 : ¬n % 23 = 22 := by omega
  show (outsAt0 m c (⟨n, h⟩ : Fin cfg0.N).val (⟨n, h⟩ : Fin cfg0.N).isLt).2.2 = _
  rw [outsAt0_A m c ⟨n, h⟩ h0 h1]
  dsimp only
  exact Pieces.acc_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩)

/-- At every other tile it is updated from what the point before left. -/
theorem acc_step (c : Dev nD) (n : ℕ) (h : n + 1 < cfg0.N) (hne : ¬(n + 1) % 23 = 0) :
    accAfter m c (n + 1) h = accStep m c (n + 1) h (accAfter m c n (Nat.lt_of_succ_lt h)) := by
  by_cases h1 : (n + 1) % 23 = 22
  · show (outsAt0 m c (⟨n + 1, h⟩ : Fin cfg0.N).val (⟨n + 1, h⟩ : Fin cfg0.N).isLt).2.2 = _
    rw [outsAt0_C m c ⟨n + 1, h⟩ hne h1]
    dsimp only
    exact Pieces.acc_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hne ((hcond0_0 ⟨n + 1, h⟩).mp hh)) ((hcond0_1 ⟨n + 1, h⟩).mpr h1)
      (iblk m c 0 ⟨n + 1, h⟩) (iblk m c 1 ⟨n + 1, h⟩) (outsAt0 m c n (Nat.lt_of_succ_lt h)).2.2
  · show (outsAt0 m c (⟨n + 1, h⟩ : Fin cfg0.N).val (⟨n + 1, h⟩ : Fin cfg0.N).isLt).2.2 = _
    rw [outsAt0_B m c ⟨n + 1, h⟩ hne h1]
    dsimp only
    exact Pieces.acc_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hne ((hcond0_0 ⟨n + 1, h⟩).mp hh)) (fun hh => h1 ((hcond0_1 ⟨n + 1, h⟩).mp hh))
      (iblk m c 0 ⟨n + 1, h⟩) (iblk m c 1 ⟨n + 1, h⟩) (outsAt0 m c n (Nat.lt_of_succ_lt h)).2.2

/-- Point n's addend to the accumulator at index i: tile n % 23's contribution to row 16·(n / 23) + i₀, region i₁
    (0 past the grid, where it is never used). -/
def addend (c : Dev nD) (n : ℕ) (i : S16x64.Idx) : EReal :=
  if h : n < 46 then
    tile (xp m c) (cp m c) ⟨16 * (n / 23) + (i 0).val, by have : (i 0).val < 16 := (i 0).isLt; omega⟩ (i 1)
      ⟨n % 23, Nat.mod_lt _ (by decide)⟩
  else 0

theorem step_apply (c : Dev nD) (n : ℕ) (h : n < cfg0.N) (acc : S16x64.Idx → EReal) (i : S16x64.Idx) :
    accStep m c n h acc i = acc i + addend m c n i := by
  obtain ⟨p, r, rfl⟩ : ∃ (p : Fin 16) (r : Fin 64), i = ix2 p r := ⟨i 0, i 1, eq_ix2 i⟩
  have hn : n < 46 := by have := hN; omega
  refine (Payload.accPay_apply (iblk m c 0 ⟨n, h⟩) (iblk m c 1 ⟨n, h⟩) acc p r).trans ?_
  rw [tile_at m c ⟨n, h⟩ p r]
  unfold addend
  rw [dif_pos hn]

theorem reset_apply (c : Dev nD) (n : ℕ) (h : n < cfg0.N) (i : S16x64.Idx) :
    accReset m c n h i = 0 + addend m c n i := by
  have := step_apply m c n h (k0_pay1 (F := Ideal)) i
  rw [Payload.zeroPay_apply] at this
  exact this

/-- After the LAST tile of row block q the accumulator holds, at (p, r), the 23 tiles' sums for row 16q + p. -/
theorem acc_last (c : Dev nD) (q : ℕ) (hq : 23 * q + 22 < cfg0.N) (i : S16x64.Idx) :
    accAfter m c (23 * q + 22) hq i
      = segP (xp m c) (cp m c) ⟨16 * q + (i 0).val, by have := hN; have : (i 0).val < 16 := (i 0).isLt; omega⟩ (i 1) := by
  have hN' := hN
  have hi0 : (i 0).val < 16 := (i 0).isLt
  rw [Pipeline.eq_accAt (accAfter m c) 23 (accReset m c) (accStep m c) (fun n h h0 => acc_reset m c n h h0)
    (fun n h hne => acc_step m c n h hne) q 22 (by decide) hq]
  rw [Pipeline.accAt_add_apply (accReset m c) (accStep m c) (fun _ => (0 : EReal)) (addend m c) (23 * q) 22
    (fun h i => reset_apply m c _ h i) (fun n h acc i _ _ => step_apply m c n h acc i) 22 (le_refl _) hq i]
  rw [zero_add, Finset.sum_range]
  unfold segP
  refine Finset.sum_congr rfl fun j _ => ?_
  have hj : j.val < 23 := j.isLt
  unfold addend
  rw [dif_pos (by omega)]
  have ea : (⟨16 * ((23 * q + j.val) / 23) + (i 0).val, by omega⟩ : Fin 32) = ⟨16 * q + (i 0).val, by omega⟩ :=
    Fin.ext (by show 16 * ((23 * q + j.val) / 23) + (i 0).val = 16 * q + (i 0).val; omega)
  have eb : (⟨(23 * q + j.val) % 23, Nat.mod_lt _ (by decide)⟩ : Fin 23) = j :=
    Fin.ext (by show (23 * q + j.val) % 23 = j.val; omega)
  rw [ea, eb]

/-! ## What each point writes back -/

/-- The first output's block after ANY point is the tile's means at every step. -/
theorem predBlock_eq (c : Dev nD) (t : Fin cfg0.N) :
    (outsAt0 m c t.val t.isLt).1 = k0_pay3 (F := Ideal) (iblk m c 0 t) := by
  by_cases h0 : t.val % 23 = 0
  · have h1 : ¬t.val % 23 = 22 := by omega
    rw [outsAt0_A m c t h0 h1]
    dsimp only
    exact Pieces.predBlock_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (iblk m c 0 t) (iblk m c 1 t)
  · by_cases h1 : t.val % 23 = 22
    · rw [outsAt0_C m c t h0 h1]
      dsimp only
      exact Pieces.predBlock_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) _
    · rw [outsAt0_B m c t h0 h1]
      dsimp only
      exact Pieces.predBlock_B (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (iblk m c 0 t) (iblk m c 1 t) _

/-- At a last tile the second output's block is the accumulator as the point leaves it. -/
theorem regBlock_eq (c : Dev nD) (t : Fin cfg0.N) (h22 : t.val % 23 = 22) :
    (outsAt0 m c t.val t.isLt).2.1 = accAfter m c t.val t.isLt := by
  have h0 : ¬t.val % 23 = 0 := by omega
  show _ = (outsAt0 m c t.val t.isLt).2.2
  rw [outsAt0_C m c t h0 h22]
  dsimp only
  exact (Pieces.regBlock_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h22) (iblk m c 0 t) (iblk m c 1 t) _).trans
    (Pieces.acc_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h22) (iblk m c 0 t) (iblk m c 1 t) _).symm

/-- The first output array's target: the padded means at every step. -/
abbrev G2 (c : Dev nD) : S32x10x100096.Idx → EReal := fun i => meanP (xp m c) (i 0) (i 2)
/-- The second output array's target: the 23 tiles' one-hot sums. -/
abbrev G3 (c : Dev nD) : S32x64.Idx → EReal := fun i => segP (xp m c) (cp m c) (i 0) (i 1)

/-- What point t writes back to the first output array is block t of its target. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, predBlock_eq]
  obtain ⟨-, -, -, -, -, e5, e6, e7, -⟩ := idx_facts t
  funext j
  obtain ⟨p, h, k, rfl⟩ : ∃ (p : Fin 16) (h : Fin 10) (k : Fin 4352), j = ix3 p h k := ⟨j 0, j 1, j 2, eq_ix3 j⟩
  show k0_pay3 (F := Ideal) (iblk m c 0 t) (ix3 p h k)
    = meanP (xp m c) ((((cfg0.win 2).blk t).view.emb (ix3 p h k)) 0) ((((cfg0.win 2).blk t).view.emb (ix3 p h k)) 2)
  rw [Payload.predPay_apply, tileMean_at]
  congr 1 <;> apply Fin.ext
  · show 16 * (t.val / 23) + p.val = win0_2.index t (0 : Fin 3) * 16 + 1 * p.val; rw [e5]; omega
  · show 4352 * (t.val % 23) + k.val = win0_2.index t (2 : Fin 3) * 4352 + 1 * k.val; rw [e7]; omega

/-- What a last-tile point writes back to the second output array is block t of its target. -/
theorem flushed3_eq (c : Dev nD) (t : Fin cfg0.N) (hf : (cfg0.win 3).flush t = true) :
    (dats m 0 c).flushed 3 t = ((cfg0.win 3).blk t).view.read (Elt Ideal) (G3 m c) := by
  have h22 : t.val % 23 = 22 := (flush0_3 t).mp hf
  have hN' := hN
  have ht : t.val < 46 := by have := t.isLt; omega
  show (cfg0.win 3).cut (grid0.coords t) ((dats m 0 c).after 3 t) = _
  rw [after0_3, regBlock_eq m c t h22]
  obtain ⟨-, -, -, -, -, -, -, -, e8, e9⟩ := idx_facts t
  funext j
  show accAfter m c t.val t.isLt j
    = segP (xp m c) (cp m c) ((((cfg0.win 3).blk t).view.emb j) 0) ((((cfg0.win 3).blk t).view.emb j) 1)
  have et : t.val = 23 * (t.val / 23) + 22 := by omega
  rw [accAfter_congr m c t.isLt (by omega : 23 * (t.val / 23) + 22 < cfg0.N) et, acc_last m c (t.val / 23) _ j]
  congr 1 <;> apply Fin.ext
  · show 16 * (t.val / 23) + (j 0).val = win0_3.index t (0 : Fin 2) * 16 + 1 * (j 0).val; rw [e8]; omega
  · show (j 1).val = win0_3.index t (1 : Fin 2) * 64 + 1 * (j 1).val; rw [e9]; omega

/-! ## The blocks written back tile the arrays -/

theorem mem_blk2 (t : Fin cfg0.N) (i : S32x10x100096.Idx) :
    i ∈ ((cfg0.win 2).blk t).view.set ↔ ∀ a : Fin 3, win0_2.index t a * S16x10x4352.size a ≤ (i a).val
      ∧ (i a).val < win0_2.index t a * S16x10x4352.size a + S16x10x4352.size a := by
  show i ∈ ((View.whole main_v5_0).slice (win0_2.rect t)).set ↔ _
  rw [View.set_slice_whole, Rect.mem_set_unit]
  exact Iff.rfl

theorem mem_blk3 (t : Fin cfg0.N) (i : S32x64.Idx) :
    i ∈ ((cfg0.win 3).blk t).view.set ↔ ∀ a : Fin 2, win0_3.index t a * S16x64.size a ≤ (i a).val
      ∧ (i a).val < win0_3.index t a * S16x64.size a + S16x64.size a := by
  show i ∈ ((View.whole main_v5_1).slice (win0_3.rect t)).set ↔ _
  rw [View.set_slice_whole, Rect.mem_set_unit]
  exact Iff.rfl

/-- The first output array ends at the padded means, at every step of the horizon. -/
theorem final2 (c : Dev nD) :
    ((dats m 0 c).arrAt 2 cfg0.N : S32x10x100096.Idx → EReal)
      = fun i => meanP (V m c main_v2 : S32x12x100096.Idx → EReal) (i 0) (i 2) :=
  (dats m 0 c).arrAt_eq_of_cover 2 (G2 m c) (fun t _ => flushed2_eq m c t) fun i => by
    have h0 : (i 0).val < 32 := (i 0).isLt
    have h1 : (i 1).val < 10 := (i 1).isLt
    have h2 : (i 2).val < 100096 := (i 2).isLt
    have hN' := hN
    have hlt : 23 * ((i 0).val / 16) + (i 2).val / 4352 < cfg0.N := by omega
    obtain ⟨-, -, -, -, -, e5, e6, e7, -⟩ := idx_facts ⟨23 * ((i 0).val / 16) + (i 2).val / 4352, hlt⟩
    refine ⟨⟨23 * ((i 0).val / 16) + (i 2).val / 4352, hlt⟩, flush0_2 _, ?_⟩
    rw [mem_blk2]
    intro a
    match a with
    | ⟨0, _⟩ =>
      show win0_2.index ⟨23 * ((i 0).val / 16) + (i 2).val / 4352, hlt⟩ (0 : Fin 3) * 16 ≤ (i 0).val
        ∧ (i 0).val < win0_2.index ⟨23 * ((i 0).val / 16) + (i 2).val / 4352, hlt⟩ (0 : Fin 3) * 16 + 16
      rw [e5]; show (23 * ((i 0).val / 16) + (i 2).val / 4352) / 23 * 16 ≤ (i 0).val ∧ (i 0).val < (23 * ((i 0).val / 16) + (i 2).val / 4352) / 23 * 16 + 16
      omega
    | ⟨1, _⟩ =>
      show win0_2.index ⟨23 * ((i 0).val / 16) + (i 2).val / 4352, hlt⟩ (1 : Fin 3) * 10 ≤ (i 1).val
        ∧ (i 1).val < win0_2.index ⟨23 * ((i 0).val / 16) + (i 2).val / 4352, hlt⟩ (1 : Fin 3) * 10 + 10
      rw [e6]; omega
    | ⟨2, _⟩ =>
      show win0_2.index ⟨23 * ((i 0).val / 16) + (i 2).val / 4352, hlt⟩ (2 : Fin 3) * 4352 ≤ (i 2).val
        ∧ (i 2).val < win0_2.index ⟨23 * ((i 0).val / 16) + (i 2).val / 4352, hlt⟩ (2 : Fin 3) * 4352 + 4352
      rw [e7]; show (23 * ((i 0).val / 16) + (i 2).val / 4352) % 23 * 4352 ≤ (i 2).val ∧ (i 2).val < (23 * ((i 0).val / 16) + (i 2).val / 4352) % 23 * 4352 + 4352
      omega

/-- The second output array ends at the 23 tiles' one-hot sums. -/
theorem final3 (c : Dev nD) :
    ((dats m 0 c).arrAt 3 cfg0.N : S32x64.Idx → EReal)
      = fun i => segP (V m c main_v2 : S32x12x100096.Idx → EReal) (V m c main_v4 : S1x100096.Idx → BitVec 32) (i 0) (i 1) :=
  (dats m 0 c).arrAt_eq_of_cover 3 (G3 m c) (fun t hf => flushed3_eq m c t hf) fun i => by
    have h0 : (i 0).val < 32 := (i 0).isLt
    have h1 : (i 1).val < 64 := (i 1).isLt
    have hN' := hN
    have hlt : 23 * ((i 0).val / 16) + 22 < cfg0.N := by omega
    obtain ⟨-, -, -, -, -, -, -, -, e8, e9⟩ := idx_facts ⟨23 * ((i 0).val / 16) + 22, hlt⟩
    refine ⟨⟨23 * ((i 0).val / 16) + 22, hlt⟩, (flush0_3 _).mpr (by show (23 * ((i 0).val / 16) + 22) % 23 = 22; omega), ?_⟩
    rw [mem_blk3]
    intro a
    match a with
    | ⟨0, _⟩ =>
      show win0_3.index ⟨23 * ((i 0).val / 16) + 22, hlt⟩ (0 : Fin 2) * 16 ≤ (i 0).val
        ∧ (i 0).val < win0_3.index ⟨23 * ((i 0).val / 16) + 22, hlt⟩ (0 : Fin 2) * 16 + 16
      rw [e8]; show (23 * ((i 0).val / 16) + 22) / 23 * 16 ≤ (i 0).val ∧ (i 0).val < (23 * ((i 0).val / 16) + 22) / 23 * 16 + 16
      omega
    | ⟨1, _⟩ =>
      show win0_3.index ⟨23 * ((i 0).val / 16) + 22, hlt⟩ (1 : Fin 2) * 64 ≤ (i 1).val
        ∧ (i 1).val < win0_3.index ⟨23 * ((i 0).val / 16) + 22, hlt⟩ (1 : Fin 2) * 64 + 64
      rw [e9]; omega

end Cert.KernelIdeal.KValue

end
-- ==== Proof.lean ====
/-
  The proof of `Cert.Claim`: the kernel against its jnp reference, over the extended reals.

  Both programs return (1) the mean over the 12 time steps of feature 0 of `x`, repeated over a 10-step
  horizon, and (2) for each of 64 regions the sum of those means over the region's nodes divided by the
  region's node count. The reference scatters the means by node id; the kernel multiplies them, tile by tile,
  by a one-hot matrix of the ids and accumulates. The two are equal because `a · 1 = a` and `a · 0 = 0` on
  every extended real; the node counts are one and the same host operation in both programs.
-/
import proofs.«413266_j38517266711057_1_alg».proof.Defs
import proofs.«413266_j38517266711057_1_alg».proof.Proof.Gen.Kernel
import proofs.«413266_j38517266711057_1_alg».proof.Proof.Gen.Kernel.Skeleton
import proofs.«413266_j38517266711057_1_alg».proof.Proof.Gen.Kernel.Launch
import proofs.«413266_j38517266711057_1_alg».proof.Proof.Gen.Kernel.Points
import proofs.«413266_j38517266711057_1_alg».proof.Proof.Gen.Kernel.Frame
import proofs.«413266_j38517266711057_1_alg».proof.Proof.Gen.KernelIdeal
import proofs.«413266_j38517266711057_1_alg».proof.Proof.Gen.KernelIdeal.Skeleton
import proofs.«413266_j38517266711057_1_alg».proof.Proof.Gen.KernelIdeal.Launch
import proofs.«413266_j38517266711057_1_alg».proof.Proof.Gen.KernelIdeal.Points
import proofs.«413266_j38517266711057_1_alg».proof.Proof.Gen.KernelIdeal.Frame
import proofs.«413266_j38517266711057_1_alg».proof.Proof.Gen.ReferenceIdeal
import proofs.«413266_j38517266711057_1_alg».proof.Proof.Gen.Pre_finite_inputs
import proofs.«413266_j38517266711057_1_alg».proof.Proof.Gen.ReferenceIdeal.Run
import proofs.«413266_j38517266711057_1_alg».proof.Proof.Gen.ReferenceIdeal.Read
import Idealize.ShloMosaic.Adequacy
import Idealize.ShloMosaic.Init

import proofs.«413266_j38517266711057_1_alg».proof.Proof.Spec
import proofs.«413266_j38517266711057_1_alg».proof.Proof.Algebra
import proofs.«413266_j38517266711057_1_alg».proof.Proof.RefValue
import proofs.«413266_j38517266711057_1_alg».proof.Proof.KernelHost
import proofs.«413266_j38517266711057_1_alg».proof.Proof.KernelValue

noncomputable section

namespace Cert.Proof

open Idealize.ShloMosaic Idealize.ShloMosaic.TcCoe Idealize.SL.Sem Idealize.ShloMosaic.ValueIdx
open Cert.SegMean

namespace KernelRun
open Cert.KernelIdeal Cert.KernelIdeal.Gen

/-- The idealized kernel's run: its two results at the specification of its arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = pred (m ((c.tc : Thread nD τ).loc main_arg0))
      ∧ r.2.mem ((c.tc : Thread nD τ).loc main_v15) = reg (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_, ?_⟩) (run_main m ρ)
  · refine ((h c).2 main_v6 (Pipeline.mem_restRefs_of main_v6 (by decide) (by decide))).trans ?_
    funext i
    rw [HostSide.tail_pred m c i, KValue.final2 m c]
    exact meanP_eq_mean _ _ (HostSide.xp_isPad m c) (i 0) (i 2)
  · refine ((h c).2 main_v15 (Pipeline.mem_restRefs_of main_v15 (by decide) (by decide))).trans ?_
    funext i
    rw [HostSide.tail_reg m c i, KValue.final3 m c]
    exact congrArg (fun s => Ideal.div s (cnt (m ((c.tc : Thread nD τ).loc main_arg1)) (ix1 (i 2))))
      (segP_eq_seg _ _ _ _ (HostSide.xp_isPad m c) (HostSide.cp_isPad m c) (i 0) (i 2))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end KernelRun

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both idealized programs end at the specification of the arguments they agree on. -/
theorem algebraic : Cert.algebraic_KernelIdeal_ReferenceIdeal := by
  intro m ρ m' ρ' _ hagree
  refine ⟨fun c => pred (m ((c.tc : Thread Cert.KernelIdeal.nD Cert.KernelIdeal.τ).loc Cert.KernelIdeal.main_arg0)),
    fun c => reg (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    KernelRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v6_eq, Cert.ReferenceIdeal.RefValue.ref_pred, (hagree c).1]
  · rw [(h c).2.1, Cert.ReferenceIdeal.Read.val_main_v18_eq, Cert.ReferenceIdeal.RefValue.ref_reg, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
